-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn_part7 {F : FTy → Type} [FloatOps F] (main_arg25 : FVec F S1024x1024 .f32) (main_arg26 : FVec F S1024x1024 .f32) (main_v118 : IVec S_ 1) (main_v119 : FVec F S1024x1024 .f32) : IVec S_ 1 :=
  let main_cst_46 : FVec F S_ .f32 := constant S_ .f32 0x7F800000#32
  let main_v120 : FVec F S1024x1024 .f32 := broadcastInDim S1024x1024 ![] bcast_S_S1024x1024 main_cst_46
  let main_v121 : IVec S1024x1024 1 := cmpf .olt main_v119 main_v120
  let main_c_47 : IVec S_ 1 := constantI S_ 1 1#1
  let main_v122 : IVec S_ 1 := (fun x v => Host.reduce IntOp.andi x v reducesTo_S1024x1024_S_d0_1 h_S_) main_v121 main_c_47
  let main_v123 : IVec S_ 1 := andi main_v118 main_v122
  let main_v124 : FVec F S1024x1024 .f32 := Host.absf main_arg25
  let main_cst_48 : FVec F S_ .f32 := constant S_ .f32 0x7F800000#32
  let main_v125 : FVec F S1024x1024 .f32 := broadcastInDim S1024x1024 ![] bcast_S_S1024x1024 main_cst_48
  let main_v126 : IVec S1024x1024 1 := cmpf .olt main_v124 main_v125
  let main_c_49 : IVec S_ 1 := constantI S_ 1 1#1
  let main_v127 : IVec S_ 1 := (fun x v => Host.reduce IntOp.andi x v reducesTo_S1024x1024_S_d0_1 h_S_) main_v126 main_c_49
  let main_v128 : IVec S_ 1 := andi main_v123 main_v127
  let main_v129 : FVec F S1024x1024 .f32 := Host.absf main_arg26
  let main_cst_50 : FVec F S_ .f32 := constant S_ .f32 0x7F800000#32
  let main_v130 : FVec F S1024x1024 .f32 := broadcastInDim S1024x1024 ![] bcast_S_S1024x1024 main_cst_50
  let main_v131 : IVec S1024x1024 1 := cmpf .olt main_v129 main_v130
  let main_c_51 : IVec S_ 1 := constantI S_ 1 1#1
  let main_v132 : IVec S_ 1 := (fun x v => Host.reduce IntOp.andi x v reducesTo_S1024x1024_S_d0_1 h_S_) main_v131 main_c_51
  let main_v133 : IVec S_ 1 := andi main_v128 main_v132
  main_v133

def fn_part6 {F : FTy → Type} [FloatOps F] (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) (main_v98 : IVec S_ 1) (main_v101 : IVec S1024x1024 1) (main_c_39 : IVec S_ 1) : IVec S_ 1 :=
  let main_v102 : IVec S_ 1 := (fun x v => Host.reduce IntOp.andi x v reducesTo_S1024x1024_S_d0_1 h_S_) main_v101 main_c_39
  let main_v103 : IVec S_ 1 := andi main_v98 main_v102
  let main_v104 : FVec F S1024x1024 .f32 := Host.absf main_arg21
  let main_cst_40 : FVec F S_ .f32 := constant S_ .f32 0x7F800000#32
  let main_v105 : FVec F S1024x1024 .f32 := broadcastInDim S1024x1024 ![] bcast_S_S1024x1024 main_cst_40
  let main_v106 : IVec S1024x1024 1 := cmpf .olt main_v104 main_v105
  let main_c_41 : IVec S_ 1 := constantI S_ 1 1#1
  let main_v107 : IVec S_ 1 := (fun x v => Host.reduce IntOp.andi x v reducesTo_S1024x1024_S_d0_1 h_S_) main_v106 main_c_41
  let main_v108 : IVec S_ 1 := andi main_v103 main_v107
  let main_v109 : FVec F S1024x1024 .f32 := Host.absf main_arg22
  let main_cst_42 : FVec F S_ .f32 := constant S_ .f32 0x7F800000#32
  let main_v110 : FVec F S1024x1024 .f32 := broadcastInDim S1024x1024 ![] bcast_S_S1024x1024 main_cst_42
  let main_v111 : IVec S1024x1024 1 := cmpf .olt main_v109 main_v110
  let main_c_43 : IVec S_ 1 := constantI S_ 1 1#1
  let main_v112 : IVec S_ 1 := (fun x v => Host.reduce IntOp.andi x v reducesTo_S1024x1024_S_d0_1 h_S_) main_v111 main_c_43
  let main_v113 : IVec S_ 1 := andi main_v108 main_v112
  let main_v114 : FVec F S1024x1024 .f32 := Host.absf main_arg23
  let main_cst_44 : FVec F S_ .f32 := constant S_ .f32 0x7F800000#32
  let main_v115 : FVec F S1024x1024 .f32 := broadcastInDim S1024x1024 ![] bcast_S_S1024x1024 main_cst_44
  let main_v116 : IVec S1024x1024 1 := cmpf .olt main_v114 main_v115
  let main_c_45 : IVec S_ 1 := constantI S_ 1 1#1
  let main_v117 : IVec S_ 1 := (fun x v => Host.reduce IntOp.andi x v reducesTo_S1024x1024_S_d0_1 h_S_) main_v116 main_c_45
  let main_v118 : IVec S_ 1 := andi main_v113 main_v117
  let main_v119 : FVec F S1024x1024 .f32 := Host.absf main_arg24
  fn_part7 (F := F) main_arg25 main_arg26 main_v118 main_v119

def fn_part5 {F : FTy → Type} [FloatOps F] (main_arg18 : FVec F S1024x1024 .f32) (main_arg19 : FVec F S1024x1024 .f32) (main_arg20 : FVec F S1024x1024 .f32) (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024x1024 .f32 := Host.absf main_arg18
  let main_cst_34 : FVec F S_ .f32 := constant S_ .f32 0x7F800000#32
  let main_v90 : FVec F S1024x1024 .f32 := broadcastInDim S1024x1024 ![] bcast_S_S1024x1024 main_cst_34
  let main_v91 : IVec S1024x1024 1 := cmpf .olt main_v89 main_v90
  let main_c_35 : IVec S_ 1 := constantI S_ 1 1#1
  let main_v92 : IVec S_ 1 := (fun x v => Host.reduce IntOp.andi x v reducesTo_S1024x1024_S_d0_1 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024x1024 .f32 := Host.absf main_arg20
  let main_cst_38 : FVec F S_ .f32 := constant S_ .f32 0x7F800000#32
  let main_v100 : FVec F S1024x1024 .f32 := broadcastInDim S1024x1024 ![] bcast_S_S1024x1024 main_cst_38
  let main_v101 : IVec S1024x1024 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1024x1024 .f32) (main_arg15 : FVec F S1024x1024 .f32) (main_arg16 : FVec F S1024x1024 .f32) (main_arg17 : FVec F S1024x1024 .f32) (main_arg18 : FVec F S1024x1024 .f32) (main_arg19 : FVec F S1024x1024 .f32) (main_arg20 : FVec F S1024x1024 .f32) (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S1024x1024 .f32) (main_arg12 : FVec F S1024x1024 .f32) (main_arg13 : FVec F S1024x1024 .f32) (main_arg14 : FVec F S1024x1024 .f32) (main_arg15 : FVec F S1024x1024 .f32) (main_arg16 : FVec F S1024x1024 .f32) (main_arg17 : FVec F S1024x1024 .f32) (main_arg18 : FVec F S1024x1024 .f32) (main_arg19 : FVec F S1024x1024 .f32) (main_arg20 : FVec F S1024x1024 .f32) (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S1024x1024 .f32) (main_arg16 : FVec F S1024x1024 .f32) (main_arg17 : FVec F S1024x1024 .f32) (main_arg18 : FVec F S1024x1024 .f32) (main_arg19 : FVec F S1024x1024 .f32) (main_arg20 : FVec F S1024x1024 .f32) (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S1024x1024 .f32) (main_arg16 : FVec F S1024x1024 .f32) (main_arg17 : FVec F S1024x1024 .f32) (main_arg18 : FVec F S1024x1024 .f32) (main_arg19 : FVec F S1024x1024 .f32) (main_arg20 : FVec F S1024x1024 .f32) (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S1024x1024 .f32) (main_arg1 : FVec F S1024x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_arg14 : FVec F S1024x1024 .f32) (main_arg15 : FVec F S1024x1024 .f32) (main_arg16 : FVec F S1024x1024 .f32) (main_arg17 : FVec F S1024x1024 .f32) (main_arg18 : FVec F S1024x1024 .f32) (main_arg19 : FVec F S1024x1024 .f32) (main_arg20 : FVec F S1024x1024 .f32) (main_arg21 : FVec F S1024x1024 .f32) (main_arg22 : FVec F S1024x1024 .f32) (main_arg23 : FVec F S1024x1024 .f32) (main_arg24 : FVec F S1024x1024 .f32) (main_arg25 : FVec F S1024x1024 .f32) (main_arg26 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S1024x1024 : Shape := ⟨2, ![1024, 1024]⟩
abbrev S64x1024 : Shape := ⟨2, ![64, 1024]⟩
abbrev S256x1024 : Shape := ⟨2, ![256, 1024]⟩

abbrev nBuf : Space → Nat
  | .hbm => 39
  | .vmem => 48
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1024x1024, .bf16⟩
  | .hbm, ⟨36, _⟩ => ⟨S1024x1024, .bf16⟩
  | .hbm, ⟨37, _⟩ => ⟨S1024x1024, .f32⟩
  | .hbm, ⟨38, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1024x1024, .bf16⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S1024x1024, .bf16⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S1024x1024, .bf16⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S1024x1024, .bf16⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S1024x1024, .bf16⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S1024x1024, .bf16⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S1024x1024, .bf16⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S1024x1024, .bf16⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10_0 : Ref sig .tc := ⟨.hbm, 37, rfl⟩
abbrev main_v10_1 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg28_1 : Ref sig .tc := ⟨.vmem, 47, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S64x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S64x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  concatenates_S64x1024_S64x1024_S64x1024_S64x1024_S256x1024_d0 : Shape.Concatenates [S64x1024, S64x1024, S64x1024, S64x1024] S256x1024 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x1024_o0_0_S64x1024 : S256x1024.Slices ![0, 0] S64x1024
  slices_S256x1024_o64_0_S64x1024 : S256x1024.Slices ![64, 0] S64x1024
  slices_S256x1024_o128_0_S64x1024 : S256x1024.Slices ![128, 0] S64x1024
  slices_S256x1024_o192_0_S64x1024 : S256x1024.Slices ![192, 0] S64x1024
  dot_S256x1024_S1024x1024_S256x1024_1_0_0_1_n_n_wf : DotDims.WF S256x1024 S1024x1024 S256x1024 [1] [0] [0] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S1024x1024.size a
  hwx0_2 : ∀ i : grid0.Coords, EltTy.bits .f32 = 32 ∨ (Rect.block (s := S1024x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S1024x1024.size a
  hwx0_3 : ∀ i : grid0.Coords, EltTy.bits .f32 = 32 ∨ (Rect.block (s := S1024x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S1024x1024.size a
  hwx0_5 : ∀ i : grid0.Coords, EltTy.bits .f32 = 32 ∨ (Rect.block (s := S1024x1024) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S1024x1024.size a
  hwx0_6 : ∀ i : grid0.Coords, EltTy.bits .f32 = 32 ∨ (Rect.block (s := S1024x1024) S64x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S1024x1024.size a
  hwx0_8 : ∀ i : grid0.Coords, EltTy.bits .f32 = 32 ∨ (Rect.block (s := S1024x1024) S64x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1024.size a ≤ S1024x1024.size a
  hwx0_9 : ∀ i : grid0.Coords, EltTy.bits .f32 = 32 ∨ (Rect.block (s := S1024x1024) S64x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1024.size a ≤ S1024x1024.size a
  hwx0_11 : ∀ i : grid0.Coords, EltTy.bits .f32 = 32 ∨ (Rect.block (s := S1024x1024) S64x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x1024.size a ≤ S1024x1024.size a
  hwx0_12 : ∀ i : grid0.Coords, EltTy.bits .f32 = 32 ∨ (Rect.block (s := S1024x1024) S64x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x1024.size a ≤ S1024x1024.size a
  hwx0_14 : ∀ i : grid0.Coords, EltTy.bits .f32 = 32 ∨ (Rect.block (s := S1024x1024) S64x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x1024.size a ≤ S1024x1024.size a
  hwx0_15 : ∀ i : grid0.Coords, EltTy.bits .f32 = 32 ∨ (Rect.block (s := S1024x1024) S64x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x1024.size a ≤ S1024x1024.size a
  hwx0_16 : ∀ i : grid0.Coords, EltTy.bits .bf16 = 32 ∨ (Rect.block (s := S1024x1024) S1024x1024.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x1024.size a ≤ S1024x1024.size a
  hwx0_17 : ∀ i : grid0.Coords, EltTy.bits .f32 = 32 ∨ (Rect.block (s := S1024x1024) S64x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x1024.size a ≤ S1024x1024.size a
  hwx0_18 : ∀ i : grid0.Coords, EltTy.bits .f32 = 32 ∨ (Rect.block (s := S1024x1024) S64x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1024x1024.size a ≤ S1024x1024.size a
  hwx0_19 : ∀ i : grid0.Coords, EltTy.bits .bf16 = 32 ∨ (Rect.block (s := S1024x1024) S1024x1024.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S64x1024.size a ≤ S1024x1024.size a
  hwx0_20 : ∀ i : grid0.Coords, EltTy.bits .f32 = 32 ∨ (Rect.block (s := S1024x1024) S64x1024.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S64x1024.size a ≤ S1024x1024.size a
  hwx0_21 : ∀ i : grid0.Coords, EltTy.bits .f32 = 32 ∨ (Rect.block (s := S1024x1024) S64x1024.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024x1024.size a ≤ S1024x1024.size a
  hwx0_22 : ∀ i : grid0.Coords, EltTy.bits .bf16 = 32 ∨ (Rect.block (s := S1024x1024) S1024x1024.size (cc0_transform_22 i) (hinb0_22 i)).WholeWords (EltTy.packing .bf16)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S64x1024.size a ≤ S1024x1024.size a
  hwx0_23 : ∀ i : grid0.Coords, EltTy.bits .f32 = 32 ∨ (Rect.block (s := S1024x1024) S64x1024.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S64x1024.size a ≤ S1024x1024.size a
  hwx0_24 : ∀ i : grid0.Coords, EltTy.bits .f32 = 32 ∨ (Rect.block (s := S1024x1024) S64x1024.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1024x1024.size a ≤ S1024x1024.size a
  hwx0_25 : ∀ i : grid0.Coords, EltTy.bits .bf16 = 32 ∨ (Rect.block (s := S1024x1024) S1024x1024.size (cc0_transform_25 i) (hinb0_25 i)).WholeWords (EltTy.packing .bf16)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S64x1024.size a ≤ S1024x1024.size a
  hwx0_26 : ∀ i : grid0.Coords, EltTy.bits .f32 = 32 ∨ (Rect.block (s := S1024x1024) S64x1024.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S64x1024.size a ≤ S1024x1024.size a
  hwx0_27 : ∀ i : grid0.Coords, EltTy.bits .f32 = 32 ∨ (Rect.block (s := S1024x1024) S64x1024.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S64x1024.size a ≤ S1024x1024.size a
  hwx0_28 : ∀ i : grid0.Coords, EltTy.bits .f32 = 32 ∨ (Rect.block (s := S1024x1024) S64x1024.size (cc0_transform_28 i) (hinb0_28 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x1024.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64x1024.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x1024.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64x1024.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6) S1024x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64x1024.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64x1024.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v7) S1024x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64x1024.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S64x1024.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v8) S1024x1024.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S64x1024.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S64x1024.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v9) S1024x1024.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S64x1024.size cc0_transform_26 reads0_26 false false 2 stage0_26 sem0_26
    hrank0 hreads0_26 hinb0_26 nbuf0_26 (Memref.isWhole_whole _) hwx0_26 hstage0_26

abbrev win0_27 : Pipeline.Window sig grid0 :=
  Pipeline.Window.ofSpec (Memref.whole main_v10_0) S64x1024.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v10_1) S64x1024.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S1024x1024, .f32⟩
  | .hbm, ⟨74, _⟩ => ⟨S_, .f32⟩
  | .hbm, ⟨75, _⟩ => ⟨S1024x1024, .f32⟩
  | .hbm, ⟨76, _⟩ => ⟨S1024x1024, .f32⟩
  | .hbm, ⟨77, _⟩ => ⟨S_, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024x1024, .f32⟩
  | .hbm, ⟨82, _⟩ => ⟨S1024x1024, .f32⟩
  | .hbm, ⟨83, _⟩ => ⟨S1024x1024, .f32⟩
  | .hbm, ⟨84, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_cst_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_3 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Dots.lean ====
/-
  The kernel's two matrix products read at an entry. A product into a zero accumulator is, on the extended reals, the
  plain sum over the shared axis of the products of the operands' entries: for the 256 × 1024 block of four stacked row
  tiles times a square matrix, and for a 64 × 1024 tile times a square matrix.
-/
import proofs.«429494_j66477503807912_3_alg».proof.Proof.Gen.KernelIdeal
import Idealize.ShloMosaic.Lib.ValueIdx
import Idealize.ShloMosaic.PureOps.Ideal.Laws

noncomputable section

namespace Cert.KernelIdeal.Dots

open Cert.KernelIdeal Idealize.ShloMosaic Idealize.ShloMosaic.ValueIdx

theorem lhs256_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs256_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs256_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs256_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A product of a 256 × 1024 block with a 1024 × 1024 matrix, accumulated into zero, at row `q` and column `j`: the
    sum over the shared axis of the products of the entries. -/
theorem mm256_apply (A : FVec Ideal S256x1024 .bf16) (B : FVec Ideal S1024x1024 .bf16) (q : Fin 256) (j : Fin 1024) :
    matmul dot_S256x1024_S1024x1024_S256x1024_1_0_0_1_n_n none A B (constant S256x1024 .f32 0x00000000#32) (ix2 q j)
      = ∑ k : Fin 1024, A (ix2 q k) * B (ix2 k j) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 q j) ((ValueIdx.contrEquiv1 dot_S256x1024_S1024x1024_S256x1024_1_0_0_1_n_n 1024 rfl rfl).symm k) = ix2 q k := funext fun a => Fin.ext (by
    match a with
    | ⟨0, _⟩ => exact lhs256_0 _ _
    | ⟨1, _⟩ => exact (lhs256_1 _ _).trans hk)
  have er : dot_S256x1024_S1024x1024_S256x1024_1_0_0_1_n_n.rhsIdx (ix2 q j) ((ValueIdx.contrEquiv1 dot_S256x1024_S1024x1024_S256x1024_1_0_0_1_n_n 1024 rfl rfl).symm k) = ix2 k j := funext fun a => Fin.ext (by
    match a with
    | ⟨0, _⟩ => exact (rhs256_0 _ _).trans hk
    | ⟨1, _⟩ => exact rhs256_1 _ _)
  rw [el, er]

theorem lhs64_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem lhs64_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhs64_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem rhs64_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- A product of a 64 × 1024 block with a 1024 × 1024 matrix, accumulated into zero, at row `q` and column `j`: the
    sum over the shared axis of the products of the entries. -/
theorem mm64_apply (A : FVec Ideal S64x1024 .bf16) (B : FVec Ideal S1024x1024 .bf16) (q : Fin 64) (j : Fin 1024) :
    matmul dot_S64x1024_S1024x1024_S64x1024_1_0_0_1_n_n none A B (constant S64x1024 .f32 0x00000000#32) (ix2 q j)
      = ∑ k : Fin 1024, A (ix2 q k) * B (ix2 k j) := by
  simp only [matmul]
  rw [Ideal.matmul_constant_zero_apply, ← Equiv.sum_comp (ValueIdx.contrEquiv1 dot_S64x1024_S1024x1024_S64x1024_1_0_0_1_n_n 1024 rfl rfl).symm]
  refine Finset.sum_congr rfl fun k _ => ?_
  have hk := ValueIdx.contrEquiv1_symm_val dot_S64x1024_S1024x1024_S64x1024_1_0_0_1_n_n 1024 rfl rfl k
  have el : dot_S64x1024_S1024x1024_S64x1024_1_0_0_1_n_n.lhsIdx (ix2 q j) ((ValueIdx.contrEquiv1 dot_S64x1024_S1024x1024_S64x1024_1_0_0_1_n_n 1024 rfl rfl).symm k) = ix2 q k := funext fun a => Fin.ext (by
    match a with
    | ⟨0, _⟩ => exact lhs64_0 _ _
    | ⟨1, _⟩ => exact (lhs64_1 _ _).trans hk)
  have er : dot_S64x1024_S1024x1024_S64x1024_1_0_0_1_n_n.rhsIdx (ix2 q j) ((ValueIdx.contrEquiv1 dot_S64x1024_S1024x1024_S64x1024_1_0_0_1_n_n 1024 rfl rfl).symm k) = ix2 k j := funext fun a => Fin.ext (by
    match a with
    | ⟨0, _⟩ => exact (rhs64_0 _ _).trans hk
    | ⟨1, _⟩ => exact rhs64_1 _ _)
  rw [el, er]

end Cert.KernelIdeal.Dots

end
-- ==== Proof.Spec.lean ====
/-
  An LSTM cell whose eight linear maps are two-sided matrix products ("Kronecker" layers): for the input `x`, the
  hidden state `h` and the cell state `c`, all 1024 × 1024, and per gate a left factor `L`, a right factor `R` and a
  bias `b`,

      lin L R b X = (L · X) · R + b                (the two products taken left to right)
      i = σ (lin_ii x + lin_hi h)     f = σ (lin_if x + lin_hf h)
      g = tanh (lin_ig x + lin_hg h)  o = σ (lin_io x + lin_ho h)
      c' = f ∘ c + i ∘ g              h' = o ∘ tanh c'

  with σ the logistic function and ∘ the entrywise product. This file states `c'` and `h'` entry by entry on the
  extended reals, as functions of the 27 argument matrices; it mentions no program. Every sum is a sum over a
  `Fin 1024` and every product an extended-real product, in the one order both programs use, so no law of the
  extended reals is needed to compare them: the two programs compute these very terms.
-/
import Idealize.ShloMosaic.PureOps.Ideal
import Idealize.ShloMosaic.PureOps.Ideal.Laws
import Idealize.ShloMosaic.Lib.ValueIdx

noncomputable section

namespace Cert.KronLstm

open Idealize.ShloMosaic Idealize.ShloMosaic.ValueIdx

/-- A 1024 × 1024 matrix of extended reals, indexed as the programs index their arrays. -/
abbrev Mat : Type := (⟨2, ![1024, 1024]⟩ : Shape).Idx → EReal

/-- The matrix product `A · B` at row `i` and column `j`. -/
def mm (A B : Mat) (i j : Fin 1024) : EReal := ∑ k : Fin 1024, A (ix2 i k) * B (ix2 k j)

/-- `(L · X) · R + b` at `(i, j)`: the inner product is formed first, for every column `k` of `L · X`. -/
def lin (L R b X : Mat) (i j : Fin 1024) : EReal :=
  (∑ k : Fin 1024, mm L X i k * R (ix2 k j)) + b (ix2 i j)

/-- The 27 argument matrices, in the order of both programs' parameters: `Lxi`, `Rxi`, `bxi` are the input gate's factors
    and bias on the `x` path, `Lhi`, `Rhi`, `bhi` those on the `h` path, and likewise for the gates `f`, `g`, `o`. -/
structure Args where
  x : Mat
  h : Mat
  c : Mat
  Lxi : Mat
  Rxi : Mat
  bxi : Mat
  Lhi : Mat
  Rhi : Mat
  bhi : Mat
  Lxf : Mat
  Rxf : Mat
  bxf : Mat
  Lhf : Mat
  Rhf : Mat
  bhf : Mat
  Lxg : Mat
  Rxg : Mat
  bxg : Mat
  Lhg : Mat
  Rhg : Mat
  bhg : Mat
  Lxo : Mat
  Rxo : Mat
  bxo : Mat
  Lho : Mat
  Rho : Mat
  bho : Mat

/-- The input gate's pre-activation: the `x` path plus the `h` path. -/
def preI (P : Args) (i j : Fin 1024) : EReal := lin P.Lxi P.Rxi P.bxi P.x i j + lin P.Lhi P.Rhi P.bhi P.h i j
/-- The forget gate's pre-activation. -/
def preF (P : Args) (i j : Fin 1024) : EReal := lin P.Lxf P.Rxf P.bxf P.x i j + lin P.Lhf P.Rhf P.bhf P.h i j
/-- The candidate's pre-activation. -/
def preG (P : Args) (i j : Fin 1024) : EReal := lin P.Lxg P.Rxg P.bxg P.x i j + lin P.Lhg P.Rhg P.bhg P.h i j
/-- The output gate's pre-activation. -/
def preO (P : Args) (i j : Fin 1024) : EReal := lin P.Lxo P.Rxo P.bxo P.x i j + lin P.Lho P.Rho P.bho P.h i j

/-- The new cell state `c' = σ(f) ∘ c + σ(i) ∘ tanh(g)` at `(i, j)`. -/
def cNew (P : Args) (i j : Fin 1024) : EReal :=
  Ideal.logistic (preF P i j) * P.c (ix2 i j) + Ideal.logistic (preI P i j) * Ideal.tanh (preG P i j)

/-- The new hidden state `h' = σ(o) ∘ tanh c'` at `(i, j)`. -/
def hNew (P : Args) (i j : Fin 1024) : EReal :=
  Ideal.logistic (preO P i j) * Ideal.tanh (cNew P i j)

/-- The two results as whole arrays. -/
def cNewArr (P : Args) : Mat := fun y => cNew P (y 0) (y 1)
def hNewArr (P : Args) : Mat := fun y => hNew P (y 0) (y 1)

/-- The float pattern `0x3F800000` is the number one. -/
theorem ofBits_one_f32 : Ideal.ofBits .f32 0x3F800000#32 = 1 := IdealRules.sign_bit.ideal_onePat .f32

/-- The logistic function written out with a quotient, `1 / (1 + e^(-z))` with both ones given as float patterns,
    is the logistic function, at every extended real (it is its definition). -/
theorem logistic_expanded (z : EReal) :
    Ideal.div (Ideal.ofBits .f32 0x3F800000#32) (Ideal.ofBits .f32 0x3F800000#32 + Ideal.exp (-z)) = Ideal.logistic z := by
  rw [ofBits_one_f32]; rfl

end Cert.KronLstm

end
-- ==== Proof.Block.lean ====
/-
  The kernel's body at one grid point, read at an entry. The body stacks the four row tiles of the `x`-path left
  factors (64 rows each) into one 256 × 1024 block, multiplies it by `x` once, and cuts the product back into four
  64-row slices; likewise for the `h` path. Rows `64·s + r` of the stacked block are row `r` of tile `s`, and a row of a
  product depends only on the same row of its left factor, so slice `s` of the stacked product is tile `s` times `x`.
  Each slice is then multiplied by its gate's right factor and the bias tile is added.
-/
import proofs.«429494_j66477503807912_3_alg».proof.Proof.Gen.KernelIdeal.Skeleton
import proofs.«429494_j66477503807912_3_alg».proof.Proof.Dots
import proofs.«429494_j66477503807912_3_alg».proof.Proof.Spec
import Idealize.ShloMosaic.Lib.Pipeline.Value
import Idealize.ShloMosaic.Lib.ValueLayout

noncomputable section

namespace Cert.KernelIdeal.Block

open Cert.KernelIdeal Cert.KernelIdeal.Gen Cert.KernelIdeal.Dots Idealize.ShloMosaic Idealize.ShloMosaic.ValueIdx

/-- Row `64·0 + r` of four 64-row tiles stacked one above the other is row `r` of tile 0. -/
theorem stack_row0 (v0 v1 v2 v3 : Vec Ideal S64x1024 .f32) (q : Fin 256) (r : Fin 64) (k : Fin 1024) (hq : q.val = 0 + r.val) :
    concatenate S256x1024 0 [⟨S64x1024, v0⟩, ⟨S64x1024, v1⟩, ⟨S64x1024, v2⟩, ⟨S64x1024, v3⟩]
      concatenates_S64x1024_S64x1024_S64x1024_S64x1024_S256x1024_d0 (ix2 q k) = v0 (ix2 r k) := by
  refine concatenate_apply_piece (0 : Fin S256x1024.rank) _ _ (ix2 q k) 0 (by simp) S64x1024 v0 rfl rfl 0 (by rfl) (ix2 r k) ?_ ?_
  · intro b hb
    match b with
    | ⟨0, _⟩ => exact absurd rfl hb
    | ⟨1, _⟩ => rfl
  · exact hq.symm

/-- Row `64·1 + r` of four 64-row tiles stacked one above the other is row `r` of tile 1. -/
theorem stack_row1 (v0 v1 v2 v3 : Vec Ideal S64x1024 .f32) (q : Fin 256) (r : Fin 64) (k : Fin 1024) (hq : q.val = 64 + r.val) :
    concatenate S256x1024 0 [⟨S64x1024, v0⟩, ⟨S64x1024, v1⟩, ⟨S64x1024, v2⟩, ⟨S64x1024, v3⟩]
      concatenates_S64x1024_S64x1024_S64x1024_S64x1024_S256x1024_d0 (ix2 q k) = v1 (ix2 r k) := by
  refine concatenate_apply_piece (0 : Fin S256x1024.rank) _ _ (ix2 q k) 1 (by simp) S64x1024 v1 rfl rfl 64 (by rfl) (ix2 r k) ?_ ?_
  · intro b hb
    match b with
    | ⟨0, _⟩ => exact absurd rfl hb
    | ⟨1, _⟩ => rfl
  · exact hq.symm

/-- Row `64·2 + r` of four 64-row tiles stacked one above the other is row `r` of tile 2. -/
theorem stack_row2 (v0 v1 v2 v3 : Vec Ideal S64x1024 .f32) (q : Fin 256) (r : Fin 64) (k : Fin 1024) (hq : q.val = 128 + r.val) :
    concatenate S256x1024 0 [⟨S64x1024, v0⟩, ⟨S64x1024, v1⟩, ⟨S64x1024, v2⟩, ⟨S64x1024, v3⟩]
      concatenates_S64x1024_S64x1024_S64x1024_S64x1024_S256x1024_d0 (ix2 q k) = v2 (ix2 r k) := by
  refine concatenate_apply_piece (0 : Fin S256x1024.rank) _ _ (ix2 q k) 2 (by simp) S64x1024 v2 rfl rfl 128 (by rfl) (ix2 r k) ?_ ?_
  · intro b hb
    match b with
    | ⟨0, _⟩ => exact absurd rfl hb
    | ⟨1, _⟩ => rfl
  · exact hq.symm

/-- Row `64·3 + r` of four 64-row tiles stacked one above the other is row `r` of tile 3. -/
theorem stack_row3 (v0 v1 v2 v3 : Vec Ideal S64x1024 .f32) (q : Fin 256) (r : Fin 64) (k : Fin 1024) (hq : q.val = 192 + r.val) :
    concatenate S256x1024 0 [⟨S64x1024, v0⟩, ⟨S64x1024, v1⟩, ⟨S64x1024, v2⟩, ⟨S64x1024, v3⟩]
      concatenates_S64x1024_S64x1024_S64x1024_S64x1024_S256x1024_d0 (ix2 q k) = v3 (ix2 r k) := by
  refine concatenate_apply_piece (0 : Fin S256x1024.rank) _ _ (ix2 q k) 3 (by simp) S64x1024 v3 rfl rfl 192 (by rfl) (ix2 r k) ?_ ?_
  · intro b hb
    match b with
    | ⟨0, _⟩ => exact absurd rfl hb
    | ⟨1, _⟩ => rfl
  · exact hq.symm

/-- The stacked product at `(q, k)`: the stacked rows times the square matrix (a change of float format is the identity
    on the extended reals, and a shape cast to the same shape moves nothing). -/
theorem stacked_apply (v0 v1 v2 v3 : Vec Ideal S64x1024 .f32) (X : Vec Ideal S1024x1024 .bf16) (q : Fin 256) (k : Fin 1024) :
    k0_pay3 v0 v1 v2 v3 X (ix2 q k)
      = ∑ k' : Fin 1024, concatenate S256x1024 0 [⟨S64x1024, v0⟩, ⟨S64x1024, v1⟩, ⟨S64x1024, v2⟩, ⟨S64x1024, v3⟩]
          concatenates_S64x1024_S64x1024_S64x1024_S64x1024_S256x1024_d0 (ix2 q k') * X (ix2 k' k) := by
  unfold k0_pay3
  rw [mm256_apply, shapeCast_self]
  rfl

/-- The `h` path's stacked product is the same function of its operands as the `x` path's. -/
theorem stackedH_eq : @k0_pay4 Ideal _ = @k0_pay3 Ideal _ := rfl

/-- Rows `64·0 …` of the stacked product: tile 0 times the square matrix, at `(r, k)`. -/
theorem stacked_slice0 (v0 v1 v2 v3 : Vec Ideal S64x1024 .f32) (X : Vec Ideal S1024x1024 .bf16) (r : Fin 64) (k : Fin 1024) :
    extractStridedSlice S64x1024 ![0, 0] (k0_pay3 v0 v1 v2 v3 X) slices_S256x1024_o0_0_S64x1024 (ix2 r k)
      = ∑ k' : Fin 1024, v0 (ix2 r k') * X (ix2 k' k) := by
  have hq : (⟨0 + r.val, by omega⟩ : Fin 256).val = 0 + r.val := rfl
  rw [slice2_axis0_apply 0 _ _ r k ⟨0 + r.val, by omega⟩ hq, stacked_apply]
  exact Finset.sum_congr rfl fun k' _ => by rw [stack_row0 v0 v1 v2 v3 _ r k' hq]

/-- Rows `64·1 …` of the stacked product: tile 1 times the square matrix, at `(r, k)`. -/
theorem stacked_slice1 (v0 v1 v2 v3 : Vec Ideal S64x1024 .f32) (X : Vec Ideal S1024x1024 .bf16) (r : Fin 64) (k : Fin 1024) :
    extractStridedSlice S64x1024 ![64, 0] (k0_pay3 v0 v1 v2 v3 X) slices_S256x1024_o64_0_S64x1024 (ix2 r k)
      = ∑ k' : Fin 1024, v1 (ix2 r k') * X (ix2 k' k) := by
  have hq : (⟨64 + r.val, by omega⟩ : Fin 256).val = 64 + r.val := rfl
  rw [slice2_axis0_apply 64 _ _ r k ⟨64 + r.val, by omega⟩ hq, stacked_apply]
  exact Finset.sum_congr rfl fun k' _ => by rw [stack_row1 v0 v1 v2 v3 _ r k' hq]

/-- Rows `64·2 …` of the stacked product: tile 2 times the square matrix, at `(r, k)`. -/
theorem stacked_slice2 (v0 v1 v2 v3 : Vec Ideal S64x1024 .f32) (X : Vec Ideal S1024x1024 .bf16) (r : Fin 64) (k : Fin 1024) :
    extractStridedSlice S64x1024 ![128, 0] (k0_pay3 v0 v1 v2 v3 X) slices_S256x1024_o128_0_S64x1024 (ix2 r k)
      = ∑ k' : Fin 1024, v2 (ix2 r k') * X (ix2 k' k) := by
  have hq : (⟨128 + r.val, by omega⟩ : Fin 256).val = 128 + r.val := rfl
  rw [slice2_axis0_apply 128 _ _ r k ⟨128 + r.val, by omega⟩ hq, stacked_apply]
  exact Finset.sum_congr rfl fun k' _ => by rw [stack_row2 v0 v1 v2 v3 _ r k' hq]

/-- Rows `64·3 …` of the stacked product: tile 3 times the square matrix, at `(r, k)`. -/
theorem stacked_slice3 (v0 v1 v2 v3 : Vec Ideal S64x1024 .f32) (X : Vec Ideal S1024x1024 .bf16) (r : Fin 64) (k : Fin 1024) :
    extractStridedSlice S64x1024 ![192, 0] (k0_pay3 v0 v1 v2 v3 X) slices_S256x1024_o192_0_S64x1024 (ix2 r k)
      = ∑ k' : Fin 1024, v3 (ix2 r k') * X (ix2 k' k) := by
  have hq : (⟨192 + r.val, by omega⟩ : Fin 256).val = 192 + r.val := rfl
  rw [slice2_axis0_apply 192 _ _ r k ⟨192 + r.val, by omega⟩ hq, stacked_apply]
  exact Finset.sum_congr rfl fun k' _ => by rw [stack_row3 v0 v1 v2 v3 _ r k' hq]

/-! ## The second stage, the four gates and the cell update on a row tile -/

/-- One path of one gate on a row tile: `(Lt · X) · R + bt` at `(r, j)`, for a 64-row tile `Lt` of the left factor
    and the matching tile `bt` of the bias. -/
def linT (Lt : Vec Ideal S64x1024 .f32) (R : Vec Ideal S1024x1024 .bf16) (bt : Vec Ideal S64x1024 .f32)
    (X : Vec Ideal S1024x1024 .bf16) (r : Fin 64) (j : Fin 1024) : EReal :=
  (∑ k : Fin 1024, (∑ k' : Fin 1024, Lt (ix2 r k') * X (ix2 k' k)) * R (ix2 k j)) + bt (ix2 r j)

/-- A 64-row slice `T` times a right factor, plus a bias tile, at `(r, j)`. -/
theorem second_stage (T : FVec Ideal S64x1024 .f32) (R : Vec Ideal S1024x1024 .bf16) (bt : Vec Ideal S64x1024 .f32)
    (r : Fin 64) (j : Fin 1024) :
    addf (matmul (φ₂ := .bf16) dot_S64x1024_S1024x1024_S64x1024_1_0_0_1_n_n none (truncf .bf16 T bitsLt_bf16_f32)
        (shapeCast S1024x1024 R shapeCasts_S1024x1024_S1024x1024) (constant S64x1024 .f32 0x00000000#32)) bt (ix2 r j)
      = (∑ k : Fin 1024, T (ix2 r k) * R (ix2 k j)) + bt (ix2 r j) := by
  rw [addf_apply, mm64_apply, shapeCast_self]
  rfl

/-- The second stage on slice 0 of the stacked product: `(tile 0 · X) · R + bias tile` at `(r, j)`. -/
theorem path_slice0 (v0 v1 v2 v3 : Vec Ideal S64x1024 .f32) (X R : Vec Ideal S1024x1024 .bf16) (bt : Vec Ideal S64x1024 .f32)
    (r : Fin 64) (j : Fin 1024) :
    addf (matmul (φ₂ := .bf16) dot_S64x1024_S1024x1024_S64x1024_1_0_0_1_n_n none
        (truncf .bf16 (extractStridedSlice S64x1024 ![0, 0] (k0_pay3 v0 v1 v2 v3 X) slices_S256x1024_o0_0_S64x1024) bitsLt_bf16_f32)
        (shapeCast S1024x1024 R shapeCasts_S1024x1024_S1024x1024) (constant S64x1024 .f32 0x00000000#32)) bt (ix2 r j)
      = linT v0 R bt X r j := by
  rw [second_stage]
  unfold linT
  exact congrArg (· + bt (ix2 r j)) (Finset.sum_congr rfl fun k _ => by rw [stacked_slice0])

/-- The second stage on slice 1 of the stacked product: `(tile 1 · X) · R + bias tile` at `(r, j)`. -/
theorem path_slice1 (v0 v1 v2 v3 : Vec Ideal S64x1024 .f32) (X R : Vec Ideal S1024x1024 .bf16) (bt : Vec Ideal S64x1024 .f32)
    (r : Fin 64) (j : Fin 1024) :
    addf (matmul (φ₂ := .bf16) dot_S64x1024_S1024x1024_S64x1024_1_0_0_1_n_n none
        (truncf .bf16 (extractStridedSlice S64x1024 ![64, 0] (k0_pay3 v0 v1 v2 v3 X) slices_S256x1024_o64_0_S64x1024) bitsLt_bf16_f32)
        (shapeCast S1024x1024 R shapeCasts_S1024x1024_S1024x1024) (constant S64x1024 .f32 0x00000000#32)) bt (ix2 r j)
      = linT v1 R bt X r j := by
  rw [second_stage]
  unfold linT
  exact congrArg (· + bt (ix2 r j)) (Finset.sum_congr rfl fun k _ => by rw [stacked_slice1])

/-- The second stage on slice 2 of the stacked product: `(tile 2 · X) · R + bias tile` at `(r, j)`. -/
theorem path_slice2 (v0 v1 v2 v3 : Vec Ideal S64x1024 .f32) (X R : Vec Ideal S1024x1024 .bf16) (bt : Vec Ideal S64x1024 .f32)
    (r : Fin 64) (j : Fin 1024) :
    addf (matmul (φ₂ := .bf16) dot_S64x1024_S1024x1024_S64x1024_1_0_0_1_n_n none
        (truncf .bf16 (extractStridedSlice S64x1024 ![128, 0] (k0_pay3 v0 v1 v2 v3 X) slices_S256x1024_o128_0_S64x1024) bitsLt_bf16_f32)
        (shapeCast S1024x1024 R shapeCasts_S1024x1024_S1024x1024) (constant S64x1024 .f32 0x00000000#32)) bt (ix2 r j)
      = linT v2 R bt X r j := by
  rw [second_stage]
  unfold linT
  exact congrArg (· + bt (ix2 r j)) (Finset.sum_congr rfl fun k _ => by rw [stacked_slice2])

/-- The second stage on slice 3 of the stacked product: `(tile 3 · X) · R + bias tile` at `(r, j)`. -/
theorem path_slice3 (v0 v1 v2 v3 : Vec Ideal S64x1024 .f32) (X R : Vec Ideal S1024x1024 .bf16) (bt : Vec Ideal S64x1024 .f32)
    (r : Fin 64) (j : Fin 1024) :
    addf (matmul (φ₂ := .bf16) dot_S64x1024_S1024x1024_S64x1024_1_0_0_1_n_n none
        (truncf .bf16 (extractStridedSlice S64x1024 ![192, 0] (k0_pay3 v0 v1 v2 v3 X) slices_S256x1024_o192_0_S64x1024) bitsLt_bf16_f32)
        (shapeCast S1024x1024 R shapeCasts_S1024x1024_S1024x1024) (constant S64x1024 .f32 0x00000000#32)) bt (ix2 r j)
      = linT v3 R bt X r j := by
  rw [second_stage]
  unfold linT
  exact congrArg (· + bt (ix2 r j)) (Finset.sum_congr rfl fun k _ => by rw [stacked_slice3])

/-- The input gate's pre-activation on the tile: the `x` path plus the `h` path. -/
theorem preI_tile (v0 v1 v2 v3 : Vec Ideal S64x1024 .f32) (X Rx : Vec Ideal S1024x1024 .bf16) (bx : Vec Ideal S64x1024 .f32)
    (w0 w1 w2 w3 : Vec Ideal S64x1024 .f32) (H Rh : Vec Ideal S1024x1024 .bf16) (bh : Vec Ideal S64x1024 .f32)
    (r : Fin 64) (j : Fin 1024) :
    k0_pay8 (k0_pay5 v0 v1 v2 v3 X Rx bx) (k0_pay6 w0 w1 w2 w3 H) (k0_pay7 Rh) (constant S64x1024 .f32 0x00000000#32) bh (ix2 r j)
      = linT v0 Rx bx X r j + linT w0 Rh bh H r j := by
  unfold k0_pay8 k0_pay5 k0_pay6 k0_pay7
  rw [addf_apply, path_slice0, stackedH_eq, path_slice0]

/-- The forget gate's pre-activation on the tile. -/
theorem preF_tile (v0 v1 v2 v3 : Vec Ideal S64x1024 .f32) (X Rx : Vec Ideal S1024x1024 .bf16) (bx : Vec Ideal S64x1024 .f32)
    (w0 w1 w2 w3 : Vec Ideal S64x1024 .f32) (H Rh : Vec Ideal S1024x1024 .bf16) (bh : Vec Ideal S64x1024 .f32)
    (r : Fin 64) (j : Fin 1024) :
    k0_pay9 (k0_pay3 v0 v1 v2 v3 X) (k0_pay4 w0 w1 w2 w3 H) Rx bx Rh bh (ix2 r j)
      = linT v1 Rx bx X r j + linT w1 Rh bh H r j := by
  unfold k0_pay9
  rw [addf_apply, path_slice1, stackedH_eq, path_slice1]

/-- The candidate's pre-activation on the tile. -/
theorem preG_tile (v0 v1 v2 v3 : Vec Ideal S64x1024 .f32) (X Rx : Vec Ideal S1024x1024 .bf16) (bx : Vec Ideal S64x1024 .f32)
    (w0 w1 w2 w3 : Vec Ideal S64x1024 .f32) (H Rh : Vec Ideal S1024x1024 .bf16) (bh : Vec Ideal S64x1024 .f32)
    (r : Fin 64) (j : Fin 1024) :
    k0_pay10 (k0_pay3 v0 v1 v2 v3 X) (k0_pay4 w0 w1 w2 w3 H) Rx bx Rh bh (ix2 r j)
      = linT v2 Rx bx X r j + linT w2 Rh bh H r j := by
  unfold k0_pay10
  rw [addf_apply, path_slice2, stackedH_eq, path_slice2]

/-- The cell update at an entry, from the three pre-activations and the old cell state. -/
theorem cell_apply (pi pf pg : FVec Ideal S64x1024 .f32) (c : Vec Ideal S64x1024 .f32) (y : S64x1024.Idx) :
    k0_pay1 pi pf pg c y = Ideal.logistic (pf y) * c y + Ideal.logistic (pi y) * Ideal.tanh (pg y) := rfl

/-- The new cell state on the tile, from the 27 blocks the body loads (numbered as the body's windows). -/
def cellT (x0 : Vec Ideal S1024x1024 .bf16) (x1 : Vec Ideal S1024x1024 .bf16) (x2 : Vec Ideal S64x1024 .f32) (x3 : Vec Ideal S64x1024 .f32) (x4 : Vec Ideal S1024x1024 .bf16) (x5 : Vec Ideal S64x1024 .f32) (x6 : Vec Ideal S64x1024 .f32) (x7 : Vec Ideal S1024x1024 .bf16) (x8 : Vec Ideal S64x1024 .f32) (x9 : Vec Ideal S64x1024 .f32) (x10 : Vec Ideal S1024x1024 .bf16) (x11 : Vec Ideal S64x1024 .f32) (x12 : Vec Ideal S64x1024 .f32) (x13 : Vec Ideal S1024x1024 .bf16) (x14 : Vec Ideal S64x1024 .f32) (x15 : Vec Ideal S64x1024 .f32) (x16 : Vec Ideal S1024x1024 .bf16) (x17 : Vec Ideal S64x1024 .f32) (x18 : Vec Ideal S64x1024 .f32) (x19 : Vec Ideal S1024x1024 .bf16) (x20 : Vec Ideal S64x1024 .f32) (x21 : Vec Ideal S64x1024 .f32) (x22 : Vec Ideal S1024x1024 .bf16) (x23 : Vec Ideal S64x1024 .f32) (x24 : Vec Ideal S64x1024 .f32) (x25 : Vec Ideal S1024x1024 .bf16) (x26 : Vec Ideal S64x1024 .f32) (r : Fin 64) (j : Fin 1024) : EReal :=
  Ideal.logistic (linT x9 x10 x11 x0 r j + linT x12 x13 x14 x1 r j) * x2 (ix2 r j)
    + Ideal.logistic (linT x3 x4 x5 x0 r j + linT x6 x7 x8 x1 r j) * Ideal.tanh (linT x15 x16 x17 x0 r j + linT x18 x19 x20 x1 r j)

/-- The new hidden state on the tile. -/
def hiddenT (x0 : Vec Ideal S1024x1024 .bf16) (x1 : Vec Ideal S1024x1024 .bf16) (x2 : Vec Ideal S64x1024 .f32) (x3 : Vec Ideal S64x1024 .f32) (x4 : Vec Ideal S1024x1024 .bf16) (x5 : Vec Ideal S64x1024 .f32) (x6 : Vec Ideal S64x1024 .f32) (x7 : Vec Ideal S1024x1024 .bf16) (x8 : Vec Ideal S64x1024 .f32) (x9 : Vec Ideal S64x1024 .f32) (x10 : Vec Ideal S1024x1024 .bf16) (x11 : Vec Ideal S64x1024 .f32) (x12 : Vec Ideal S64x1024 .f32) (x13 : Vec Ideal S1024x1024 .bf16) (x14 : Vec Ideal S64x1024 .f32) (x15 : Vec Ideal S64x1024 .f32) (x16 : Vec Ideal S1024x1024 .bf16) (x17 : Vec Ideal S64x1024 .f32) (x18 : Vec Ideal S64x1024 .f32) (x19 : Vec Ideal S1024x1024 .bf16) (x20 : Vec Ideal S64x1024 .f32) (x21 : Vec Ideal S64x1024 .f32) (x22 : Vec Ideal S1024x1024 .bf16) (x23 : Vec Ideal S64x1024 .f32) (x24 : Vec Ideal S64x1024 .f32) (x25 : Vec Ideal S1024x1024 .bf16) (x26 : Vec Ideal S64x1024 .f32) (r : Fin 64) (j : Fin 1024) : EReal :=
  Ideal.logistic (linT x21 x22 x23 x0 r j + linT x24 x25 x26 x1 r j)
    * Ideal.tanh (cellT x0 x1 x2 x3 x4 x5 x6 x7 x8 x9 x10 x11 x12 x13 x14 x15 x16 x17 x18 x19 x20 x21 x22 x23 x24 x25 x26 r j)

/-- What the body stores to the cell-state output block, at `(r, j)`. -/
theorem cell_tile (x0 : Vec Ideal S1024x1024 .bf16) (x1 : Vec Ideal S1024x1024 .bf16) (x2 : Vec Ideal S64x1024 .f32) (x3 : Vec Ideal S64x1024 .f32) (x4 : Vec Ideal S1024x1024 .bf16) (x5 : Vec Ideal S64x1024 .f32) (x6 : Vec Ideal S64x1024 .f32) (x7 : Vec Ideal S1024x1024 .bf16) (x8 : Vec Ideal S64x1024 .f32) (x9 : Vec Ideal S64x1024 .f32) (x10 : Vec Ideal S1024x1024 .bf16) (x11 : Vec Ideal S64x1024 .f32) (x12 : Vec Ideal S64x1024 .f32) (x13 : Vec Ideal S1024x1024 .bf16) (x14 : Vec Ideal S64x1024 .f32) (x15 : Vec Ideal S64x1024 .f32) (x16 : Vec Ideal S1024x1024 .bf16) (x17 : Vec Ideal S64x1024 .f32) (x18 : Vec Ideal S64x1024 .f32) (x19 : Vec Ideal S1024x1024 .bf16) (x20 : Vec Ideal S64x1024 .f32) (x21 : Vec Ideal S64x1024 .f32) (x22 : Vec Ideal S1024x1024 .bf16) (x23 : Vec Ideal S64x1024 .f32) (x24 : Vec Ideal S64x1024 .f32) (x25 : Vec Ideal S1024x1024 .bf16) (x26 : Vec Ideal S64x1024 .f32) (r : Fin 64) (j : Fin 1024) :
    k0_pay1 (k0_pay8 (k0_pay5 x3 x9 x15 x21 x0 x4 x5) (k0_pay6 x6 x12 x18 x24 x1) (k0_pay7 x7) (constant S64x1024 .f32 0x00000000#32) x8)
        (k0_pay9 (k0_pay3 x3 x9 x15 x21 x0) (k0_pay4 x6 x12 x18 x24 x1) x10 x11 x13 x14)
        (k0_pay10 (k0_pay3 x3 x9 x15 x21 x0) (k0_pay4 x6 x12 x18 x24 x1) x16 x17 x19 x20) x2 (ix2 r j)
      = cellT x0 x1 x2 x3 x4 x5 x6 x7 x8 x9 x10 x11 x12 x13 x14 x15 x16 x17 x18 x19 x20 x21 x22 x23 x24 x25 x26 r j := by
  rw [cell_apply, preI_tile, preF_tile, preG_tile]
  rfl

/-- What the body stores to the hidden-state output block, at `(r, j)`. -/
theorem hidden_tile (x0 : Vec Ideal S1024x1024 .bf16) (x1 : Vec Ideal S1024x1024 .bf16) (x2 : Vec Ideal S64x1024 .f32) (x3 : Vec Ideal S64x1024 .f32) (x4 : Vec Ideal S1024x1024 .bf16) (x5 : Vec Ideal S64x1024 .f32) (x6 : Vec Ideal S64x1024 .f32) (x7 : Vec Ideal S1024x1024 .bf16) (x8 : Vec Ideal S64x1024 .f32) (x9 : Vec Ideal S64x1024 .f32) (x10 : Vec Ideal S1024x1024 .bf16) (x11 : Vec Ideal S64x1024 .f32) (x12 : Vec Ideal S64x1024 .f32) (x13 : Vec Ideal S1024x1024 .bf16) (x14 : Vec Ideal S64x1024 .f32) (x15 : Vec Ideal S64x1024 .f32) (x16 : Vec Ideal S1024x1024 .bf16) (x17 : Vec Ideal S64x1024 .f32) (x18 : Vec Ideal S64x1024 .f32) (x19 : Vec Ideal S1024x1024 .bf16) (x20 : Vec Ideal S64x1024 .f32) (x21 : Vec Ideal S64x1024 .f32) (x22 : Vec Ideal S1024x1024 .bf16) (x23 : Vec Ideal S64x1024 .f32) (x24 : Vec Ideal S64x1024 .f32) (x25 : Vec Ideal S1024x1024 .bf16) (x26 : Vec Ideal S64x1024 .f32) (r : Fin 64) (j : Fin 1024) :
    k0_pay2 (k0_pay4 x6 x12 x18 x24 x1)
        (k0_pay8 (k0_pay5 x3 x9 x15 x21 x0 x4 x5) (k0_pay6 x6 x12 x18 x24 x1) (k0_pay7 x7) (constant S64x1024 .f32 0x00000000#32) x8)
        (k0_pay9 (k0_pay3 x3 x9 x15 x21 x0) (k0_pay4 x6 x12 x18 x24 x1) x10 x11 x13 x14)
        (k0_pay10 (k0_pay3 x3 x9 x15 x21 x0) (k0_pay4 x6 x12 x18 x24 x1) x16 x17 x19 x20)
        (k0_pay11 (k0_pay3 x3 x9 x15 x21 x0)) x22 x23 x25 x26 x2 (ix2 r j)
      = hiddenT x0 x1 x2 x3 x4 x5 x6 x7 x8 x9 x10 x11 x12 x13 x14 x15 x16 x17 x18 x19 x20 x21 x22 x23 x24 x25 x26 r j := by
  unfold k0_pay2 k0_pay11
  show Ideal.logistic (addf (F := Ideal) _ _ (ix2 r j)) * Ideal.tanh (k0_pay1 (F := Ideal) _ _ _ _ (ix2 r j)) = _
  rw [cell_tile, addf_apply, path_slice3, stackedH_eq, path_slice3]
  rfl

/-! ## From a row tile to the arrays

Tile `t` of a row-tiled array holds rows `64·t …` of it, and the ten resident arrays are held whole. So at row `r` of
the tile — row `i` of the arrays — every tile-level quantity above is the specification's at `(i, j)`. -/

/-- One path of one gate: if row `r` of the left-factor tile and of the bias tile are row `i` of their arrays, and the
    two square operands are the arrays `Xm` and `Rm`, the tile's value at `(r, j)` is the specification's at `(i, j)`. -/
theorem linT_eq (Lt : Vec Ideal S64x1024 .f32) (R : Vec Ideal S1024x1024 .bf16) (bt : Vec Ideal S64x1024 .f32)
    (X : Vec Ideal S1024x1024 .bf16) (L Rm b Xm : Cert.KronLstm.Mat) (i : Fin 1024) (r : Fin 64)
    (hL : ∀ k, Lt (ix2 r k) = L (ix2 i k)) (hR : ∀ y, R y = Rm y) (hb : ∀ k, bt (ix2 r k) = b (ix2 i k))
    (hX : ∀ y, X y = Xm y) (j : Fin 1024) :
    linT Lt R bt X r j = Cert.KronLstm.lin L Rm b Xm i j := by
  unfold linT Cert.KronLstm.lin Cert.KronLstm.mm
  rw [hb j]
  refine congrArg (· + b (ix2 i j)) (Finset.sum_congr rfl fun k _ => ?_)
  rw [hR]
  exact congrArg (· * Rm (ix2 k j)) (Finset.sum_congr rfl fun k' _ => by rw [hL k', hX])

open Cert.KronLstm in
/-- The new cell state on the tile is the specification's at the tile's rows. -/
theorem cellT_eq (P : Args) (i : Fin 1024) (r : Fin 64) (x0 : Vec Ideal S1024x1024 .bf16) (x1 : Vec Ideal S1024x1024 .bf16) (x2 : Vec Ideal S64x1024 .f32) (x3 : Vec Ideal S64x1024 .f32) (x4 : Vec Ideal S1024x1024 .bf16) (x5 : Vec Ideal S64x1024 .f32) (x6 : Vec Ideal S64x1024 .f32) (x7 : Vec Ideal S1024x1024 .bf16) (x8 : Vec Ideal S64x1024 .f32) (x9 : Vec Ideal S64x1024 .f32) (x10 : Vec Ideal S1024x1024 .bf16) (x11 : Vec Ideal S64x1024 .f32) (x12 : Vec Ideal S64x1024 .f32) (x13 : Vec Ideal S1024x1024 .bf16) (x14 : Vec Ideal S64x1024 .f32) (x15 : Vec Ideal S64x1024 .f32) (x16 : Vec Ideal S1024x1024 .bf16) (x17 : Vec Ideal S64x1024 .f32) (x18 : Vec Ideal S64x1024 .f32) (x19 : Vec Ideal S1024x1024 .bf16) (x20 : Vec Ideal S64x1024 .f32) (x21 : Vec Ideal S64x1024 .f32) (x22 : Vec Ideal S1024x1024 .bf16) (x23 : Vec Ideal S64x1024 .f32) (x24 : Vec Ideal S64x1024 .f32) (x25 : Vec Ideal S1024x1024 .bf16) (x26 : Vec Ideal S64x1024 .f32)
    (e0 : ∀ y, x0 y = P.x y)
    (e1 : ∀ y, x1 y = P.h y)
    (e2 : ∀ k, x2 (ix2 r k) = P.c (ix2 i k))
    (e3 : ∀ k, x3 (ix2 r k) = P.Lxi (ix2 i k))
    (e4 : ∀ y, x4 y = P.Rxi y)
    (e5 : ∀ k, x5 (ix2 r k) = P.bxi (ix2 i k))
    (e6 : ∀ k, x6 (ix2 r k) = P.Lhi (ix2 i k))
    (e7 : ∀ y, x7 y = P.Rhi y)
    (e8 : ∀ k, x8 (ix2 r k) = P.bhi (ix2 i k))
    (e9 : ∀ k, x9 (ix2 r k) = P.Lxf (ix2 i k))
    (e10 : ∀ y, x10 y = P.Rxf y)
    (e11 : ∀ k, x11 (ix2 r k) = P.bxf (ix2 i k))
    (e12 : ∀ k, x12 (ix2 r k) = P.Lhf (ix2 i k))
    (e13 : ∀ y, x13 y = P.Rhf y)
    (e14 : ∀ k, x14 (ix2 r k) = P.bhf (ix2 i k))
    (e15 : ∀ k, x15 (ix2 r k) = P.Lxg (ix2 i k))
    (e16 : ∀ y, x16 y = P.Rxg y)
    (e17 : ∀ k, x17 (ix2 r k) = P.bxg (ix2 i k))
    (e18 : ∀ k, x18 (ix2 r k) = P.Lhg (ix2 i k))
    (e19 : ∀ y, x19 y = P.Rhg y)
    (e20 : ∀ k, x20 (ix2 r k) = P.bhg (ix2 i k))
    (e21 : ∀ k, x21 (ix2 r k) = P.Lxo (ix2 i k))
    (e22 : ∀ y, x22 y = P.Rxo y)
    (e23 : ∀ k, x23 (ix2 r k) = P.bxo (ix2 i k))
    (e24 : ∀ k, x24 (ix2 r k) = P.Lho (ix2 i k))
    (e25 : ∀ y, x25 y = P.Rho y)
    (e26 : ∀ k, x26 (ix2 r k) = P.bho (ix2 i k))
    (j : Fin 1024) :
    cellT x0 x1 x2 x3 x4 x5 x6 x7 x8 x9 x10 x11 x12 x13 x14 x15 x16 x17 x18 x19 x20 x21 x22 x23 x24 x25 x26 r j = cNew P i j := by
  unfold cellT cNew preI preF preG
  rw [linT_eq x9 x10 x11 x0 P.Lxf P.Rxf P.bxf P.x i r e9 e10 e11 e0, linT_eq x12 x13 x14 x1 P.Lhf P.Rhf P.bhf P.h i r e12 e13 e14 e1,
    linT_eq x3 x4 x5 x0 P.Lxi P.Rxi P.bxi P.x i r e3 e4 e5 e0, linT_eq x6 x7 x8 x1 P.Lhi P.Rhi P.bhi P.h i r e6 e7 e8 e1,
    linT_eq x15 x16 x17 x0 P.Lxg P.Rxg P.bxg P.x i r e15 e16 e17 e0, linT_eq x18 x19 x20 x1 P.Lhg P.Rhg P.bhg P.h i r e18 e19 e20 e1,
    e2 j]

open Cert.KronLstm in
/-- The new hidden state on the tile is the specification's at the tile's rows. -/
theorem hiddenT_eq (P : Args) (i : Fin 1024) (r : Fin 64) (x0 : Vec Ideal S1024x1024 .bf16) (x1 : Vec Ideal S1024x1024 .bf16) (x2 : Vec Ideal S64x1024 .f32) (x3 : Vec Ideal S64x1024 .f32) (x4 : Vec Ideal S1024x1024 .bf16) (x5 : Vec Ideal S64x1024 .f32) (x6 : Vec Ideal S64x1024 .f32) (x7 : Vec Ideal S1024x1024 .bf16) (x8 : Vec Ideal S64x1024 .f32) (x9 : Vec Ideal S64x1024 .f32) (x10 : Vec Ideal S1024x1024 .bf16) (x11 : Vec Ideal S64x1024 .f32) (x12 : Vec Ideal S64x1024 .f32) (x13 : Vec Ideal S1024x1024 .bf16) (x14 : Vec Ideal S64x1024 .f32) (x15 : Vec Ideal S64x1024 .f32) (x16 : Vec Ideal S1024x1024 .bf16) (x17 : Vec Ideal S64x1024 .f32) (x18 : Vec Ideal S64x1024 .f32) (x19 : Vec Ideal S1024x1024 .bf16) (x20 : Vec Ideal S64x1024 .f32) (x21 : Vec Ideal S64x1024 .f32) (x22 : Vec Ideal S1024x1024 .bf16) (x23 : Vec Ideal S64x1024 .f32) (x24 : Vec Ideal S64x1024 .f32) (x25 : Vec Ideal S1024x1024 .bf16) (x26 : Vec Ideal S64x1024 .f32)
    (e0 : ∀ y, x0 y = P.x y)
    (e1 : ∀ y, x1 y = P.h y)
    (e2 : ∀ k, x2 (ix2 r k) = P.c (ix2 i k))
    (e3 : ∀ k, x3 (ix2 r k) = P.Lxi (ix2 i k))
    (e4 : ∀ y, x4 y = P.Rxi y)
    (e5 : ∀ k, x5 (ix2 r k) = P.bxi (ix2 i k))
    (e6 : ∀ k, x6 (ix2 r k) = P.Lhi (ix2 i k))
    (e7 : ∀ y, x7 y = P.Rhi y)
    (e8 : ∀ k, x8 (ix2 r k) = P.bhi (ix2 i k))
    (e9 : ∀ k, x9 (ix2 r k) = P.Lxf (ix2 i k))
    (e10 : ∀ y, x10 y = P.Rxf y)
    (e11 : ∀ k, x11 (ix2 r k) = P.bxf (ix2 i k))
    (e12 : ∀ k, x12 (ix2 r k) = P.Lhf (ix2 i k))
    (e13 : ∀ y, x13 y = P.Rhf y)
    (e14 : ∀ k, x14 (ix2 r k) = P.bhf (ix2 i k))
    (e15 : ∀ k, x15 (ix2 r k) = P.Lxg (ix2 i k))
    (e16 : ∀ y, x16 y = P.Rxg y)
    (e17 : ∀ k, x17 (ix2 r k) = P.bxg (ix2 i k))
    (e18 : ∀ k, x18 (ix2 r k) = P.Lhg (ix2 i k))
    (e19 : ∀ y, x19 y = P.Rhg y)
    (e20 : ∀ k, x20 (ix2 r k) = P.bhg (ix2 i k))
    (e21 : ∀ k, x21 (ix2 r k) = P.Lxo (ix2 i k))
    (e22 : ∀ y, x22 y = P.Rxo y)
    (e23 : ∀ k, x23 (ix2 r k) = P.bxo (ix2 i k))
    (e24 : ∀ k, x24 (ix2 r k) = P.Lho (ix2 i k))
    (e25 : ∀ y, x25 y = P.Rho y)
    (e26 : ∀ k, x26 (ix2 r k) = P.bho (ix2 i k))
    (j : Fin 1024) :
    hiddenT x0 x1 x2 x3 x4 x5 x6 x7 x8 x9 x10 x11 x12 x13 x14 x15 x16 x17 x18 x19 x20 x21 x22 x23 x24 x25 x26 r j = hNew P i j := by
  unfold hiddenT hNew preO
  rw [cellT_eq P i r x0 x1 x2 x3 x4 x5 x6 x7 x8 x9 x10 x11 x12 x13 x14 x15 x16 x17 x18 x19 x20 x21 x22 x23 x24 x25 x26 e0 e1 e2 e3 e4 e5 e6 e7 e8 e9 e10 e11 e12 e13 e14 e15 e16 e17 e18 e19 e20 e21 e22 e23 e24 e25 e26 j,
    linT_eq x21 x22 x23 x0 P.Lxo P.Rxo P.bxo P.x i r e21 e22 e23 e0, linT_eq x24 x25 x26 x1 P.Lho P.Rho P.bho P.h i r e24 e25 e26 e1]

end Cert.KernelIdeal.Block

end
-- ==== Proof.Whole.lean ====
/-
  From the kernel's blocks to its two result arrays. The grid has 16 points; point `t` stages rows `64·t … 64·t + 63` of
  every row-tiled array (the eight left factors, the eight biases, the cell state, and the two results) and the whole of
  the ten resident arrays (`x`, `h` and the eight right factors, converted to bf16 on the host, which changes no extended
  real). The body's block at a point is the specification's array read through that point's block, and the 16 blocks
  cover the 1024 rows, so after the run each result array is the specification's.
-/
import proofs.«429494_j66477503807912_3_alg».proof.Proof.ValueKernelIdeal
import proofs.«429494_j66477503807912_3_alg».proof.Proof.Block
import Idealize.ShloMosaic.Lib.StableHlo.Run

noncomputable section

namespace Cert.KernelIdeal.Whole

open Cert.KernelIdeal Cert.KernelIdeal.Gen Cert.KernelIdeal.GenP Cert.KernelIdeal.Block Cert.KronLstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The 27 argument arrays as the program is launched with them on core `c`. -/
def args (c : Dev nD) : Args where
  x := m ((c : Thread nD τ).loc main_arg0)
  h := m ((c : Thread nD τ).loc main_arg1)
  c := m ((c : Thread nD τ).loc main_arg2)
  Lxi := m ((c : Thread nD τ).loc main_arg3)
  Rxi := m ((c : Thread nD τ).loc main_arg4)
  bxi := m ((c : Thread nD τ).loc main_arg5)
  Lhi := m ((c : Thread nD τ).loc main_arg6)
  Rhi := m ((c : Thread nD τ).loc main_arg7)
  bhi := m ((c : Thread nD τ).loc main_arg8)
  Lxf := m ((c : Thread nD τ).loc main_arg9)
  Rxf := m ((c : Thread nD τ).loc main_arg10)
  bxf := m ((c : Thread nD τ).loc main_arg11)
  Lhf := m ((c : Thread nD τ).loc main_arg12)
  Rhf := m ((c : Thread nD τ).loc main_arg13)
  bhf := m ((c : Thread nD τ).loc main_arg14)
  Lxg := m ((c : Thread nD τ).loc main_arg15)
  Rxg := m ((c : Thread nD τ).loc main_arg16)
  bxg := m ((c : Thread nD τ).loc main_arg17)
  Lhg := m ((c : Thread nD τ).loc main_arg18)
  Rhg := m ((c : Thread nD τ).loc main_arg19)
  bhg := m ((c : Thread nD τ).loc main_arg20)
  Lxo := m ((c : Thread nD τ).loc main_arg21)
  Rxo := m ((c : Thread nD τ).loc main_arg22)
  bxo := m ((c : Thread nD τ).loc main_arg23)
  Lho := m ((c : Thread nD τ).loc main_arg24)
  Rho := m ((c : Thread nD τ).loc main_arg25)
  bho := m ((c : Thread nD τ).loc main_arg26)

theorem hz : (![0, 0] : Fin 2 → Nat) = fun _ => 0 := funext fun a => by fin_cases a <;> rfl

/-! ## Where each window's block sits, decided over the 16 grid points -/

theorem idx_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem idx_19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)
theorem idx_22 : ∀ t : Fin cfg0.N, win0_22.index t (0 : Fin 2) = 0 ∧ win0_22.index t (1 : Fin 2) = 0 :=
  (by decide +kernel : ∀ t : Fin grid0.N, win0_22.index t (0 : Fin 2) = 0 ∧ win0_22.index t (1 : Fin 2) = 0)
theorem idx_25 : ∀ t : Fin cfg0.N, win0_25.index t (0 : Fin 2) = 0 ∧ win0_25.index t (1 : Fin 2) = 0 :=
  (by decide +kernel : ∀ t : Fin grid0.N, win0_25.index t (0 : Fin 2) = 0 ∧ win0_25.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx_14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx_15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx_17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)
theorem idx_18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)
theorem idx_20 : ∀ t : Fin cfg0.N, win0_20.index t (0 : Fin 2) = t.val ∧ win0_20.index t (1 : Fin 2) = 0 :=
  (by decide +kernel : ∀ t : Fin grid0.N, win0_20.index t (0 : Fin 2) = t.val ∧ win0_20.index t (1 : Fin 2) = 0)
theorem idx_21 : ∀ t : Fin cfg0.N, win0_21.index t (0 : Fin 2) = t.val ∧ win0_21.index t (1 : Fin 2) = 0 :=
  (by decide +kernel : ∀ t : Fin grid0.N, win0_21.index t (0 : Fin 2) = t.val ∧ win0_21.index t (1 : Fin 2) = 0)
theorem idx_23 : ∀ t : Fin cfg0.N, win0_23.index t (0 : Fin 2) = t.val ∧ win0_23.index t (1 : Fin 2) = 0 :=
  (by decide +kernel : ∀ t : Fin grid0.N, win0_23.index t (0 : Fin 2) = t.val ∧ win0_23.index t (1 : Fin 2) = 0)
theorem idx_24 : ∀ t : Fin cfg0.N, win0_24.index t (0 : Fin 2) = t.val ∧ win0_24.index t (1 : Fin 2) = 0 :=
  (by decide +kernel : ∀ t : Fin grid0.N, win0_24.index t (0 : Fin 2) = t.val ∧ win0_24.index t (1 : Fin 2) = 0)
theorem idx_26 : ∀ t : Fin cfg0.N, win0_26.index t (0 : Fin 2) = t.val ∧ win0_26.index t (1 : Fin 2) = 0 :=
  (by decide +kernel : ∀ t : Fin grid0.N, win0_26.index t (0 : Fin 2) = t.val ∧ win0_26.index t (1 : Fin 2) = 0)
theorem idx_27 : ∀ t : Fin cfg0.N, win0_27.index t (0 : Fin 2) = t.val ∧ win0_27.index t (1 : Fin 2) = 0 :=
  (by decide +kernel : ∀ t : Fin grid0.N, win0_27.index t (0 : Fin 2) = t.val ∧ win0_27.index t (1 : Fin 2) = 0)
theorem idx_28 : ∀ t : Fin cfg0.N, win0_28.index t (0 : Fin 2) = t.val ∧ win0_28.index t (1 : Fin 2) = 0 :=
  (by decide +kernel : ∀ t : Fin grid0.N, win0_28.index t (0 : Fin 2) = t.val ∧ win0_28.index t (1 : Fin 2) = 0)

/-! ## The resident arrays as the region finds them -/

/-- The array window 0 stages is argument 0 converted to bf16 on the host: the same extended reals. -/
theorem V_v0 (c : Dev nD) (y : S1024x1024.Idx) : V m c main_v0 y = m ((c : Thread nD τ).loc main_arg0) y := by
  have e : (V m c main_v0 : S1024x1024.Idx → EReal) = truncf (F := Ideal) .bf16 (m ((c : Thread nD τ).loc main_arg0)) bitsLt_bf16_f32 := by
    dsimp only [V, hostOps0]; after_results
  rw [e]; rfl

/-- The array window 1 stages is argument 1 converted to bf16 on the host: the same extended reals. -/
theorem V_v1 (c : Dev nD) (y : S1024x1024.Idx) : V m c main_v1 y = m ((c : Thread nD τ).loc main_arg1) y := by
  have e : (V m c main_v1 : S1024x1024.Idx → EReal) = truncf (F := Ideal) .bf16 (m ((c : Thread nD τ).loc main_arg1)) bitsLt_bf16_f32 := by
    dsimp only [V, hostOps0]; after_results
  rw [e]; rfl

/-- The array window 4 stages is argument 4 converted to bf16 on the host: the same extended reals. -/
theorem V_v2 (c : Dev nD) (y : S1024x1024.Idx) : V m c main_v2 y = m ((c : Thread nD τ).loc main_arg4) y := by
  have e : (V m c main_v2 : S1024x1024.Idx → EReal) = truncf (F := Ideal) .bf16 (m ((c : Thread nD τ).loc main_arg4)) bitsLt_bf16_f32 := by
    dsimp only [V, hostOps0]; after_results
  rw [e]; rfl

/-- The array window 7 stages is argument 7 converted to bf16 on the host: the same extended reals. -/
theorem V_v3 (c : Dev nD) (y : S1024x1024.Idx) : V m c main_v3 y = m ((c : Thread nD τ).loc main_arg7) y := by
  have e : (V m c main_v3 : S1024x1024.Idx → EReal) = truncf (F := Ideal) .bf16 (m ((c : Thread nD τ).loc main_arg7)) bitsLt_bf16_f32 := by
    dsimp only [V, hostOps0]; after_results
  rw [e]; rfl

/-- The array window 10 stages is argument 10 converted to bf16 on the host: the same extended reals. -/
theorem V_v4 (c : Dev nD) (y : S1024x1024.Idx) : V m c main_v4 y = m ((c : Thread nD τ).loc main_arg10) y := by
  have e : (V m c main_v4 : S1024x1024.Idx → EReal) = truncf (F := Ideal) .bf16 (m ((c : Thread nD τ).loc main_arg10)) bitsLt_bf16_f32 := by
    dsimp only [V, hostOps0]; after_results
  rw [e]; rfl

/-- The array window 13 stages is argument 13 converted to bf16 on the host: the same extended reals. -/
theorem V_v5 (c : Dev nD) (y : S1024x1024.Idx) : V m c main_v5 y = m ((c : Thread nD τ).loc main_arg13) y := by
  have e : (V m c main_v5 : S1024x1024.Idx → EReal) = truncf (F := Ideal) .bf16 (m ((c : Thread nD τ).loc main_arg13)) bitsLt_bf16_f32 := by
    dsimp only [V, hostOps0]; after_results
  rw [e]; rfl

/-- The array window 16 stages is argument 16 converted to bf16 on the host: the same extended reals. -/
theorem V_v6 (c : Dev nD) (y : S1024x1024.Idx) : V m c main_v6 y = m ((c : Thread nD τ).loc main_arg16) y := by
  have e : (V m c main_v6 : S1024x1024.Idx → EReal) = truncf (F := Ideal) .bf16 (m ((c : Thread nD τ).loc main_arg16)) bitsLt_bf16_f32 := by
    dsimp only [V, hostOps0]; after_results
  rw [e]; rfl

/-- The array window 19 stages is argument 19 converted to bf16 on the host: the same extended reals. -/
theorem V_v7 (c : Dev nD) (y : S1024x1024.Idx) : V m c main_v7 y = m ((c : Thread nD τ).loc main_arg19) y := by
  have e : (V m c main_v7 : S1024x1024.Idx → EReal) = truncf (F := Ideal) .bf16 (m ((c : Thread nD τ).loc main_arg19)) bitsLt_bf16_f32 := by
    dsimp only [V, hostOps0]; after_results
  rw [e]; rfl

/-- The array window 22 stages is argument 22 converted to bf16 on the host: the same extended reals. -/
theorem V_v8 (c : Dev nD) (y : S1024x1024.Idx) : V m c main_v8 y = m ((c : Thread nD τ).loc main_arg22) y := by
  have e : (V m c main_v8 : S1024x1024.Idx → EReal) = truncf (F := Ideal) .bf16 (m ((c : Thread nD τ).loc main_arg22)) bitsLt_bf16_f32 := by
    dsimp only [V, hostOps0]; after_results
  rw [e]; rfl

/-- The array window 25 stages is argument 25 converted to bf16 on the host: the same extended reals. -/
theorem V_v9 (c : Dev nD) (y : S1024x1024.Idx) : V m c main_v9 y = m ((c : Thread nD τ).loc main_arg25) y := by
  have e : (V m c main_v9 : S1024x1024.Idx → EReal) = truncf (F := Ideal) .bf16 (m ((c : Thread nD τ).loc main_arg25)) bitsLt_bf16_f32 := by
    dsimp only [V, hostOps0]; after_results
  rw [e]; rfl

/-! ## Each input block read off its argument array -/

theorem blk0 (c : Dev nD) (t : Fin cfg0.N) (y : S1024x1024.Idx) : iblk m c 0 t y = m ((c : Thread nD τ).loc main_arg0) y := by
  rw [← V_v0 m c y]
  show V m c main_v0 (((cfg0.win 0).blk t).view.emb y) = V m c main_v0 y
  refine congrArg _ (funext fun a => Fin.ext ?_)
  obtain ⟨h0, h1⟩ := idx_0 t
  match a with
  | ⟨0, _⟩ => show win0_0.index t (0 : Fin 2) * 1024 + 1 * (y 0).val = (y 0).val; omega
  | ⟨1, _⟩ => show win0_0.index t (1 : Fin 2) * 1024 + 1 * (y 1).val = (y 1).val; omega

theorem blk1 (c : Dev nD) (t : Fin cfg0.N) (y : S1024x1024.Idx) : iblk m c 1 t y = m ((c : Thread nD τ).loc main_arg1) y := by
  rw [← V_v1 m c y]
  show V m c main_v1 (((cfg0.win 1).blk t).view.emb y) = V m c main_v1 y
  refine congrArg _ (funext fun a => Fin.ext ?_)
  obtain ⟨h0, h1⟩ := idx_1 t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk4 (c : Dev nD) (t : Fin cfg0.N) (y : S1024x1024.Idx) : iblk m c 4 t y = m ((c : Thread nD τ).loc main_arg4) y := by
  rw [← V_v2 m c y]
  show V m c main_v2 (((cfg0.win 4).blk t).view.emb y) = V m c main_v2 y
  refine congrArg _ (funext fun a => Fin.ext ?_)
  obtain ⟨h0, h1⟩ := idx_4 t
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem blk7 (c : Dev nD) (t : Fin cfg0.N) (y : S1024x1024.Idx) : iblk m c 7 t y = m ((c : Thread nD τ).loc main_arg7) y := by
  rw [← V_v3 m c y]
  show V m c main_v3 (((cfg0.win 7).blk t).view.emb y) = V m c main_v3 y
  refine congrArg _ (funext fun a => Fin.ext ?_)
  obtain ⟨h0, h1⟩ := idx_7 t
  match a with
  | ⟨0, _⟩ => show win0_7.index t (0 : Fin 2) * 1024 + 1 * (y 0).val = (y 0).val; omega
  | ⟨1, _⟩ => show win0_7.index t (1 : Fin 2) * 1024 + 1 * (y 1).val = (y 1).val; omega

theorem blk10 (c : Dev nD) (t : Fin cfg0.N) (y : S1024x1024.Idx) : iblk m c 10 t y = m ((c : Thread nD τ).loc main_arg10) y := by
  rw [← V_v4 m c y]
  show V m c main_v4 (((cfg0.win 10).blk t).view.emb y) = V m c main_v4 y
  refine congrArg _ (funext fun a => Fin.ext ?_)
  obtain ⟨h0, h1⟩ := idx_10 t
  match a with
  | ⟨0, _⟩ => show win0_10.index t (0 : Fin 2) * 1024 + 1 * (y 0).val = (y 0).val; omega
  | ⟨1, _⟩ => show win0_10.index t (1 : Fin 2) * 1024 + 1 * (y 1).val = (y 1).val; omega

theorem blk13 (c : Dev nD) (t : Fin cfg0.N) (y : S1024x1024.Idx) : iblk m c 13 t y = m ((c : Thread nD τ).loc main_arg13) y := by
  rw [← V_v5 m c y]
  show V m c main_v5 (((cfg0.win 13).blk t).view.emb y) = V m c main_v5 y
  refine congrArg _ (funext fun a => Fin.ext ?_)
  obtain ⟨h0, h1⟩ := idx_13 t
  match a with
  | ⟨0, _⟩ => show win0_13.index t (0 : Fin 2) * 1024 + 1 * (y 0).val = (y 0).val; omega
  | ⟨1, _⟩ => show win0_13.index t (1 : Fin 2) * 1024 + 1 * (y 1).val = (y 1).val; omega

theorem blk16 (c : Dev nD) (t : Fin cfg0.N) (y : S1024x1024.Idx) : iblk m c 16 t y = m ((c : Thread nD τ).loc main_arg16) y := by
  rw [← V_v6 m c y]
  show V m c main_v6 (((cfg0.win 16).blk t).view.emb y) = V m c main_v6 y
  refine congrArg _ (funext fun a => Fin.ext ?_)
  obtain ⟨h0, h1⟩ := idx_16 t
  match a with
  | ⟨0, _⟩ => show win0_16.index t (0 : Fin 2) * 1024 + 1 * (y 0).val = (y 0).val; omega
  | ⟨1, _⟩ => show win0_16.index t (1 : Fin 2) * 1024 + 1 * (y 1).val = (y 1).val; omega

theorem blk19 (c : Dev nD) (t : Fin cfg0.N) (y : S1024x1024.Idx) : iblk m c 19 t y = m ((c : Thread nD τ).loc main_arg19) y := by
  rw [← V_v7 m c y]
  show V m c main_v7 (((cfg0.win 19).blk t).view.emb y) = V m c main_v7 y
  refine congrArg _ (funext fun a => Fin.ext ?_)
  obtain ⟨h0, h1⟩ := idx_19 t
  match a with
  | ⟨0, _⟩ => show win0_19.index t (0 : Fin 2) * 1024 + 1 * (y 0).val = (y 0).val; omega
  | ⟨1, _⟩ => show win0_19.index t (1 : Fin 2) * 1024 + 1 * (y 1).val = (y 1).val; omega

theorem blk22 (c : Dev nD) (t : Fin cfg0.N) (y : S1024x1024.Idx) : iblk m c 22 t y = m ((c : Thread nD τ).loc main_arg22) y := by
  rw [← V_v8 m c y]
  show V m c main_v8 (((cfg0.win 22).blk t).view.emb y) = V m c main_v8 y
  refine congrArg _ (funext fun a => Fin.ext ?_)
  obtain ⟨h0, h1⟩ := idx_22 t
  match a with
  | ⟨0, _⟩ => show win0_22.index t (0 : Fin 2) * 1024 + 1 * (y 0).val = (y 0).val; omega
  | ⟨1, _⟩ => show win0_22.index t (1 : Fin 2) * 1024 + 1 * (y 1).val = (y 1).val; omega

theorem blk25 (c : Dev nD) (t : Fin cfg0.N) (y : S1024x1024.Idx) : iblk m c 25 t y = m ((c : Thread nD τ).loc main_arg25) y := by
  rw [← V_v9 m c y]
  show V m c main_v9 (((cfg0.win 25).blk t).view.emb y) = V m c main_v9 y
  refine congrArg _ (funext fun a => Fin.ext ?_)
  obtain ⟨h0, h1⟩ := idx_25 t
  match a with
  | ⟨0, _⟩ => show win0_25.index t (0 : Fin 2) * 1024 + 1 * (y 0).val = (y 0).val; omega
  | ⟨1, _⟩ => show win0_25.index t (1 : Fin 2) * 1024 + 1 * (y 1).val = (y 1).val; omega

theorem blk2 (c : Dev nD) (t : Fin cfg0.N) (r : Fin 64) (i : Fin 1024) (hi : i.val = 64 * t.val + r.val) (k : Fin 1024) :
    iblk m c 2 t (ix2 r k) = m ((c : Thread nD τ).loc main_arg2) (ix2 i k) := by
  rw [← V_main_arg2 m c]
  show V m c main_arg2 (((cfg0.win 2).blk t).view.emb (ix2 r k)) = V m c main_arg2 (ix2 i k)
  refine congrArg _ (funext fun a => Fin.ext ?_)
  obtain ⟨h0, h1⟩ := idx_2 t
  match a with
  | ⟨0, _⟩ => show win0_2.index t (0 : Fin 2) * 64 + 1 * r.val = i.val; omega
  | ⟨1, _⟩ => show win0_2.index t (1 : Fin 2) * 1024 + 1 * k.val = k.val; omega

theorem blk3 (c : Dev nD) (t : Fin cfg0.N) (r : Fin 64) (i : Fin 1024) (hi : i.val = 64 * t.val + r.val) (k : Fin 1024) :
    iblk m c 3 t (ix2 r k) = m ((c : Thread nD τ).loc main_arg3) (ix2 i k) := by
  rw [← V_main_arg3 m c]
  show V m c main_arg3 (((cfg0.win 3).blk t).view.emb (ix2 r k)) = V m c main_arg3 (ix2 i k)
  refine congrArg _ (funext fun a => Fin.ext ?_)
  obtain ⟨h0, h1⟩ := idx_3 t
  match a with
  | ⟨0, _⟩ => show win0_3.index t (0 : Fin 2) * 64 + 1 * r.val = i.val; omega
  | ⟨1, _⟩ => show win0_3.index t (1 : Fin 2) * 1024 + 1 * k.val = k.val; omega

theorem blk5 (c : Dev nD) (t : Fin cfg0.N) (r : Fin 64) (i : Fin 1024) (hi : i.val = 64 * t.val + r.val) (k : Fin 1024) :
    iblk m c 5 t (ix2 r k) = m ((c : Thread nD τ).loc main_arg5) (ix2 i k) := by
  rw [← V_main_arg5 m c]
  show V m c main_arg5 (((cfg0.win 5).blk t).view.emb (ix2 r k)) = V m c main_arg5 (ix2 i k)
  refine congrArg _ (funext fun a => Fin.ext ?_)
  obtain ⟨h0, h1⟩ := idx_5 t
  match a with
  | ⟨0, _⟩ => show win0_5.index t (0 : Fin 2) * 64 + 1 * r.val = i.val; omega
  | ⟨1, _⟩ => show win0_5.index t (1 : Fin 2) * 1024 + 1 * k.val = k.val; omega

theorem blk6 (c : Dev nD) (t : Fin cfg0.N) (r : Fin 64) (i : Fin 1024) (hi : i.val = 64 * t.val + r.val) (k : Fin 1024) :
    iblk m c 6 t (ix2 r k) = m ((c : Thread nD τ).loc main_arg6) (ix2 i k) := by
  rw [← V_main_arg6 m c]
  show V m c main_arg6 (((cfg0.win 6).blk t).view.emb (ix2 r k)) = V m c main_arg6 (ix2 i k)
  refine congrArg _ (funext fun a => Fin.ext ?_)
  obtain ⟨h0, h1⟩ := idx_6 t
  match a with
  | ⟨0, _⟩ => show win0_6.index t (0 : Fin 2) * 64 + 1 * r.val = i.val; omega
  | ⟨1, _⟩ => show win0_6.index t (1 : Fin 2) * 1024 + 1 * k.val = k.val; omega

theorem blk8 (c : Dev nD) (t : Fin cfg0.N) (r : Fin 64) (i : Fin 1024) (hi : i.val = 64 * t.val + r.val) (k : Fin 1024) :
    iblk m c 8 t (ix2 r k) = m ((c : Thread nD τ).loc main_arg8) (ix2 i k) := by
  rw [← V_main_arg8 m c]
  show V m c main_arg8 (((cfg0.win 8).blk t).view.emb (ix2 r k)) = V m c main_arg8 (ix2 i k)
  refine congrArg _ (funext fun a => Fin.ext ?_)
  obtain ⟨h0, h1⟩ := idx_8 t
  match a with
  | ⟨0, _⟩ => show win0_8.index t (0 : Fin 2) * 64 + 1 * r.val = i.val; omega
  | ⟨1, _⟩ => show win0_8.index t (1 : Fin 2) * 1024 + 1 * k.val = k.val; omega

theorem blk9 (c : Dev nD) (t : Fin cfg0.N) (r : Fin 64) (i : Fin 1024) (hi : i.val = 64 * t.val + r.val) (k : Fin 1024) :
    iblk m c 9 t (ix2 r k) = m ((c : Thread nD τ).loc main_arg9) (ix2 i k) := by
  rw [← V_main_arg9 m c]
  show V m c main_arg9 (((cfg0.win 9).blk t).view.emb (ix2 r k)) = V m c main_arg9 (ix2 i k)
  refine congrArg _ (funext fun a => Fin.ext ?_)
  obtain ⟨h0, h1⟩ := idx_9 t
  match a with
  | ⟨0, _⟩ => show win0_9.index t (0 : Fin 2) * 64 + 1 * r.val = i.val; omega
  | ⟨1, _⟩ => show win0_9.index t (1 : Fin 2) * 1024 + 1 * k.val = k.val; omega

theorem blk11 (c : Dev nD) (t : Fin cfg0.N) (r : Fin 64) (i : Fin 1024) (hi : i.val = 64 * t.val + r.val) (k : Fin 1024) :
    iblk m c 11 t (ix2 r k) = m ((c : Thread nD τ).loc main_arg11) (ix2 i k) := by
  rw [← V_main_arg11 m c]
  show V m c main_arg11 (((cfg0.win 11).blk t).view.emb (ix2 r k)) = V m c main_arg11 (ix2 i k)
  refine congrArg _ (funext fun a => Fin.ext ?_)
  obtain ⟨h0, h1⟩ := idx_11 t
  match a with
  | ⟨0, _⟩ => show win0_11.index t (0 : Fin 2) * 64 + 1 * r.val = i.val; omega
  | ⟨1, _⟩ => show win0_11.index t (1 : Fin 2) * 1024 + 1 * k.val = k.val; omega

theorem blk12 (c : Dev nD) (t : Fin cfg0.N) (r : Fin 64) (i : Fin 1024) (hi : i.val = 64 * t.val + r.val) (k : Fin 1024) :
    iblk m c 12 t (ix2 r k) = m ((c : Thread nD τ).loc main_arg12) (ix2 i k) := by
  rw [← V_main_arg12 m c]
  show V m c main_arg12 (((cfg0.win 12).blk t).view.emb (ix2 r k)) = V m c main_arg12 (ix2 i k)
  refine congrArg _ (funext fun a => Fin.ext ?_)
  obtain ⟨h0, h1⟩ := idx_12 t
  match a with
  | ⟨0, _⟩ => show win0_12.index t (0 : Fin 2) * 64 + 1 * r.val = i.val; omega
  | ⟨1, _⟩ => show win0_12.index t (1 : Fin 2) * 1024 + 1 * k.val = k.val; omega

theorem blk14 (c : Dev nD) (t : Fin cfg0.N) (r : Fin 64) (i : Fin 1024) (hi : i.val = 64 * t.val + r.val) (k : Fin 1024) :
    iblk m c 14 t (ix2 r k) = m ((c : Thread nD τ).loc main_arg14) (ix2 i k) := by
  rw [← V_main_arg14 m c]
  show V m c main_arg14 (((cfg0.win 14).blk t).view.emb (ix2 r k)) = V m c main_arg14 (ix2 i k)
  refine congrArg _ (funext fun a => Fin.ext ?_)
  obtain ⟨h0, h1⟩ := idx_14 t
  match a with
  | ⟨0, _⟩ => show win0_14.index t (0 : Fin 2) * 64 + 1 * r.val = i.val; omega
  | ⟨1, _⟩ => show win0_14.index t (1 : Fin 2) * 1024 + 1 * k.val = k.val; omega

theorem blk15 (c : Dev nD) (t : Fin cfg0.N) (r : Fin 64) (i : Fin 1024) (hi : i.val = 64 * t.val + r.val) (k : Fin 1024) :
    iblk m c 15 t (ix2 r k) = m ((c : Thread nD τ).loc main_arg15) (ix2 i k) := by
  rw [← V_main_arg15 m c]
  show V m c main_arg15 (((cfg0.win 15).blk t).view.emb (ix2 r k)) = V m c main_arg15 (ix2 i k)
  refine congrArg _ (funext fun a => Fin.ext ?_)
  obtain ⟨h0, h1⟩ := idx_15 t
  match a with
  | ⟨0, _⟩ => show win0_15.index t (0 : Fin 2) * 64 + 1 * r.val = i.val; omega
  | ⟨1, _⟩ => show win0_15.index t (1 : Fin 2) * 1024 + 1 * k.val = k.val; omega

theorem blk17 (c : Dev nD) (t : Fin cfg0.N) (r : Fin 64) (i : Fin 1024) (hi : i.val = 64 * t.val + r.val) (k : Fin 1024) :
    iblk m c 17 t (ix2 r k) = m ((c : Thread nD τ).loc main_arg17) (ix2 i k) := by
  rw [← V_main_arg17 m c]
  show V m c main_arg17 (((cfg0.win 17).blk t).view.emb (ix2 r k)) = V m c main_arg17 (ix2 i k)
  refine congrArg _ (funext fun a => Fin.ext ?_)
  obtain ⟨h0, h1⟩ := idx_17 t
  match a with
  | ⟨0, _⟩ => show win0_17.index t (0 : Fin 2) * 64 + 1 * r.val = i.val; omega
  | ⟨1, _⟩ => show win0_17.index t (1 : Fin 2) * 1024 + 1 * k.val = k.val; omega

theorem blk18 (c : Dev nD) (t : Fin cfg0.N) (r : Fin 64) (i : Fin 1024) (hi : i.val = 64 * t.val + r.val) (k : Fin 1024) :
    iblk m c 18 t (ix2 r k) = m ((c : Thread nD τ).loc main_arg18) (ix2 i k) := by
  rw [← V_main_arg18 m c]
  show V m c main_arg18 (((cfg0.win 18).blk t).view.emb (ix2 r k)) = V m c main_arg18 (ix2 i k)
  refine congrArg _ (funext fun a => Fin.ext ?_)
  obtain ⟨h0, h1⟩ := idx_18 t
  match a with
  | ⟨0, _⟩ => show win0_18.index t (0 : Fin 2) * 64 + 1 * r.val = i.val; omega
  | ⟨1, _⟩ => show win0_18.index t (1 : Fin 2) * 1024 + 1 * k.val = k.val; omega

theorem blk20 (c : Dev nD) (t : Fin cfg0.N) (r : Fin 64) (i : Fin 1024) (hi : i.val = 64 * t.val + r.val) (k : Fin 1024) :
    iblk m c 20 t (ix2 r k) = m ((c : Thread nD τ).loc main_arg20) (ix2 i k) := by
  rw [← V_main_arg20 m c]
  show V m c main_arg20 (((cfg0.win 20).blk t).view.emb (ix2 r k)) = V m c main_arg20 (ix2 i k)
  refine congrArg _ (funext fun a => Fin.ext ?_)
  obtain ⟨h0, h1⟩ := idx_20 t
  match a with
  | ⟨0, _⟩ => show win0_20.index t (0 : Fin 2) * 64 + 1 * r.val = i.val; omega
  | ⟨1, _⟩ => show win0_20.index t (1 : Fin 2) * 1024 + 1 * k.val = k.val; omega

theorem blk21 (c : Dev nD) (t : Fin cfg0.N) (r : Fin 64) (i : Fin 1024) (hi : i.val = 64 * t.val + r.val) (k : Fin 1024) :
    iblk m c 21 t (ix2 r k) = m ((c : Thread nD τ).loc main_arg21) (ix2 i k) := by
  rw [← V_main_arg21 m c]
  show V m c main_arg21 (((cfg0.win 21).blk t).view.emb (ix2 r k)) = V m c main_arg21 (ix2 i k)
  refine congrArg _ (funext fun a => Fin.ext ?_)
  obtain ⟨h0, h1⟩ := idx_21 t
  match a with
  | ⟨0, _⟩ => show win0_21.index t (0 : Fin 2) * 64 + 1 * r.val = i.val; omega
  | ⟨1, _⟩ => show win0_21.index t (1 : Fin 2) * 1024 + 1 * k.val = k.val; omega

theorem blk23 (c : Dev nD) (t : Fin cfg0.N) (r : Fin 64) (i : Fin 1024) (hi : i.val = 64 * t.val + r.val) (k : Fin 1024) :
    iblk m c 23 t (ix2 r k) = m ((c : Thread nD τ).loc main_arg23) (ix2 i k) := by
  rw [← V_main_arg23 m c]
  show V m c main_arg23 (((cfg0.win 23).blk t).view.emb (ix2 r k)) = V m c main_arg23 (ix2 i k)
  refine congrArg _ (funext fun a => Fin.ext ?_)
  obtain ⟨h0, h1⟩ := idx_23 t
  match a with
  | ⟨0, _⟩ => show win0_23.index t (0 : Fin 2) * 64 + 1 * r.val = i.val; omega
  | ⟨1, _⟩ => show win0_23.index t (1 : Fin 2) * 1024 + 1 * k.val = k.val; omega

theorem blk24 (c : Dev nD) (t : Fin cfg0.N) (r : Fin 64) (i : Fin 1024) (hi : i.val = 64 * t.val + r.val) (k : Fin 1024) :
    iblk m c 24 t (ix2 r k) = m ((c : Thread nD τ).loc main_arg24) (ix2 i k) := by
  rw [← V_main_arg24 m c]
  show V m c main_arg24 (((cfg0.win 24).blk t).view.emb (ix2 r k)) = V m c main_arg24 (ix2 i k)
  refine congrArg _ (funext fun a => Fin.ext ?_)
  obtain ⟨h0, h1⟩ := idx_24 t
  match a with
  | ⟨0, _⟩ => show win0_24.index t (0 : Fin 2) * 64 + 1 * r.val = i.val; omega
  | ⟨1, _⟩ => show win0_24.index t (1 : Fin 2) * 1024 + 1 * k.val = k.val; omega

theorem blk26 (c : Dev nD) (t : Fin cfg0.N) (r : Fin 64) (i : Fin 1024) (hi : i.val = 64 * t.val + r.val) (k : Fin 1024) :
    iblk m c 26 t (ix2 r k) = m ((c : Thread nD τ).loc main_arg26) (ix2 i k) := by
  rw [← V_main_arg26 m c]
  show V m c main_arg26 (((cfg0.win 26).blk t).view.emb (ix2 r k)) = V m c main_arg26 (ix2 i k)
  refine congrArg _ (funext fun a => Fin.ext ?_)
  obtain ⟨h0, h1⟩ := idx_26 t
  match a with
  | ⟨0, _⟩ => show win0_26.index t (0 : Fin 2) * 64 + 1 * r.val = i.val; omega
  | ⟨1, _⟩ => show win0_26.index t (1 : Fin 2) * 1024 + 1 * k.val = k.val; omega

/-! ## What each point writes back -/

/-- What point `t` writes back to the cell-state array is block `t` of the specification's array: the body's block at row
    `r` is the specification at row `64·t + r`, which is where the block's row `r` sits in the array. -/
theorem flushed28_eq (c : Dev nD) (t : Fin cfg0.N) :
    (dats m 0 c).flushed 28 t = ((cfg0.win 28).blk t).view.read (Elt Ideal) (cNewArr (args m c)) := by
  rw [ValueP.flushed28]
  unfold out0_28
  rw [View.canon_unit_zero hz]
  simp only [View.ld_unit_zero (S := S64x1024) hz, View.ld_unit_zero (S := S1024x1024) hz]
  funext y
  obtain ⟨r, j, rfl⟩ : ∃ (r : Fin 64) (j : Fin 1024), y = ix2 r j := ⟨y 0, y 1, eq_ix2 y⟩
  have ht : t.val < 16 := t.isLt
  obtain ⟨h0, h1⟩ := idx_28 t
  let i : Fin 1024 := ⟨64 * t.val + r.val, by omega⟩
  have hi : i.val = 64 * t.val + r.val := rfl
  have hemb : ((cfg0.win 28).blk t).view.emb (ix2 r j) = ix2 i j := funext fun a => Fin.ext (by
    match a with
    | ⟨0, _⟩ => show win0_28.index t (0 : Fin 2) * 64 + 1 * r.val = i.val; omega
    | ⟨1, _⟩ => show win0_28.index t (1 : Fin 2) * 1024 + 1 * j.val = j.val; omega)
  show _ = cNewArr (args m c) (((cfg0.win 28).blk t).view.emb (ix2 r j))
  rw [hemb]
  refine (cell_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) r j).trans ?_
  exact cellT_eq (args m c) i r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (blk0 m c t) (blk1 m c t) (blk2 m c t r i hi) (blk3 m c t r i hi) (blk4 m c t) (blk5 m c t r i hi) (blk6 m c t r i hi) (blk7 m c t) (blk8 m c t r i hi) (blk9 m c t r i hi) (blk10 m c t) (blk11 m c t r i hi) (blk12 m c t r i hi) (blk13 m c t) (blk14 m c t r i hi) (blk15 m c t r i hi) (blk16 m c t) (blk17 m c t r i hi) (blk18 m c t r i hi) (blk19 m c t) (blk20 m c t r i hi) (blk21 m c t r i hi) (blk22 m c t) (blk23 m c t r i hi) (blk24 m c t r i hi) (blk25 m c t) (blk26 m c t r i hi) j

/-- What point `t` writes back to the hidden-state array is block `t` of the specification's array: the body's block at row
    `r` is the specification at row `64·t + r`, which is where the block's row `r` sits in the array. -/
theorem flushed27_eq (c : Dev nD) (t : Fin cfg0.N) :
    (dats m 0 c).flushed 27 t = ((cfg0.win 27).blk t).view.read (Elt Ideal) (hNewArr (args m c)) := by
  rw [ValueP.flushed27]
  unfold out0_27
  rw [View.canon_unit_zero hz]
  simp only [View.ld_unit_zero (S := S64x1024) hz, View.ld_unit_zero (S := S1024x1024) hz]
  funext y
  obtain ⟨r, j, rfl⟩ : ∃ (r : Fin 64) (j : Fin 1024), y = ix2 r j := ⟨y 0, y 1, eq_ix2 y⟩
  have ht : t.val < 16 := t.isLt
  obtain ⟨h0, h1⟩ := idx_27 t
  let i : Fin 1024 := ⟨64 * t.val + r.val, by omega⟩
  have hi : i.val = 64 * t.val + r.val := rfl
  have hemb : ((cfg0.win 27).blk t).view.emb (ix2 r j) = ix2 i j := funext fun a => Fin.ext (by
    match a with
    | ⟨0, _⟩ => show win0_27.index t (0 : Fin 2) * 64 + 1 * r.val = i.val; omega
    | ⟨1, _⟩ => show win0_27.index t (1 : Fin 2) * 1024 + 1 * j.val = j.val; omega)
  show _ = hNewArr (args m c) (((cfg0.win 27).blk t).view.emb (ix2 r j))
  rw [hemb]
  refine (hidden_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) r j).trans ?_
  exact hiddenT_eq (args m c) i r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (blk0 m c t) (blk1 m c t) (blk2 m c t r i hi) (blk3 m c t r i hi) (blk4 m c t) (blk5 m c t r i hi) (blk6 m c t r i hi) (blk7 m c t) (blk8 m c t r i hi) (blk9 m c t r i hi) (blk10 m c t) (blk11 m c t r i hi) (blk12 m c t r i hi) (blk13 m c t) (blk14 m c t r i hi) (blk15 m c t r i hi) (blk16 m c t) (blk17 m c t r i hi) (blk18 m c t r i hi) (blk19 m c t) (blk20 m c t r i hi) (blk21 m c t r i hi) (blk22 m c t) (blk23 m c t r i hi) (blk24 m c t r i hi) (blk25 m c t) (blk26 m c t r i hi) j

/-! ## The blocks cover the arrays -/

/-- An index of the array is in point `t`'s block iff each coordinate is in the block's range on its axis. -/
theorem mem_blk27 (t : Fin cfg0.N) (i : S1024x1024.Idx) :
    i ∈ ((cfg0.win 27).blk t).view.set ↔ ∀ a : Fin 2, win0_27.index t a * S64x1024.size a ≤ (i a).val ∧ (i a).val < win0_27.index t a * S64x1024.size a + S64x1024.size a := by
  show i ∈ ((View.whole main_v10_0).slice (win0_27.rect t)).set ↔ _
  rw [View.set_slice_whole, Rect.mem_set_unit]
  exact Iff.rfl

/-- An index of the array is in point `t`'s block iff each coordinate is in the block's range on its axis. -/
theorem mem_blk28 (t : Fin cfg0.N) (i : S1024x1024.Idx) :
    i ∈ ((cfg0.win 28).blk t).view.set ↔ ∀ a : Fin 2, win0_28.index t a * S64x1024.size a ≤ (i a).val ∧ (i a).val < win0_28.index t a * S64x1024.size a + S64x1024.size a := by
  show i ∈ ((View.whole main_v10_1).slice (win0_28.rect t)).set ↔ _
  rw [View.set_slice_whole, Rect.mem_set_unit]
  exact Iff.rfl

/-- Every row of the hidden-state array lies in the block of the point `row / 64`. -/
theorem cover27 (i : S1024x1024.Idx) : ∃ t : Fin cfg0.N, (cfg0.win 27).flush t = true ∧ i ∈ ((cfg0.win 27).blk t).view.set := by
  have hi0 : (i 0).val < 1024 := (i 0).isLt
  have hi1 : (i 1).val < 1024 := (i 1).isLt
  let t : Fin cfg0.N := ⟨(i 0).val / 64, by show (i 0).val / 64 < 16; omega⟩
  have ht : t.val = (i 0).val / 64 := rfl
  obtain ⟨h0, h1⟩ := idx_27 t
  refine ⟨t, flush0_27 t, ?_⟩
  rw [mem_blk27]
  intro a
  match a with
  | ⟨0, _⟩ => show win0_27.index t (0 : Fin 2) * 64 ≤ (i 0).val ∧ (i 0).val < win0_27.index t (0 : Fin 2) * 64 + 64; omega
  | ⟨1, _⟩ => show win0_27.index t (1 : Fin 2) * 1024 ≤ (i 1).val ∧ (i 1).val < win0_27.index t (1 : Fin 2) * 1024 + 1024; omega

/-- Every row of the cell-state array lies in the block of the point `row / 64`. -/
theorem cover28 (i : S1024x1024.Idx) : ∃ t : Fin cfg0.N, (cfg0.win 28).flush t = true ∧ i ∈ ((cfg0.win 28).blk t).view.set := by
  have hi0 : (i 0).val < 1024 := (i 0).isLt
  have hi1 : (i 1).val < 1024 := (i 1).isLt
  let t : Fin cfg0.N := ⟨(i 0).val / 64, by show (i 0).val / 64 < 16; omega⟩
  have ht : t.val = (i 0).val / 64 := rfl
  obtain ⟨h0, h1⟩ := idx_28 t
  refine ⟨t, flush0_28 t, ?_⟩
  rw [mem_blk28]
  intro a
  match a with
  | ⟨0, _⟩ => show win0_28.index t (0 : Fin 2) * 64 ≤ (i 0).val ∧ (i 0).val < win0_28.index t (0 : Fin 2) * 64 + 64; omega
  | ⟨1, _⟩ => show win0_28.index t (1 : Fin 2) * 1024 ≤ (i 1).val ∧ (i 1).val < win0_28.index t (1 : Fin 2) * 1024 + 1024; omega

/-- After the run the hidden-state array is the specification's. -/
theorem final27 (c : Dev nD) : (dats m 0 c).arrAt 27 cfg0.N = hNewArr (args m c) :=
  (dats m 0 c).arrAt_eq_of_cover 27 (hNewArr (args m c)) (fun t _ => flushed27_eq m c t) cover27

/-- After the run the cell-state array is the specification's. -/
theorem final28 (c : Dev nD) : (dats m 0 c).arrAt 28 cfg0.N = cNewArr (args m c) :=
  (dats m 0 c).arrAt_eq_of_cover 28 (cNewArr (args m c)) (fun t _ => flushed28_eq m c t) cover28

end Cert.KernelIdeal.Whole

end
-- ==== Proof.RefValue.lean ====
/-
  The reference program computes the cell update entry by entry as the specification writes it: each linear map is
  two host matrix products, left to right, plus the bias; each logistic gate is written out as `1 / (1 + e^(-z))`,
  which on the extended reals is the logistic function by definition; and the products and sums of the update are
  entrywise.
-/
import proofs.«429494_j66477503807912_3_alg».proof.Proof.Gen.ReferenceIdeal.Read
import proofs.«429494_j66477503807912_3_alg».proof.Proof.Spec

noncomputable section

namespace Cert.ReferenceIdeal.RefValue

open Cert.ReferenceIdeal Cert.ReferenceIdeal.Gen Cert.KronLstm Idealize.ShloMosaic Idealize.ShloMosaic.ValueIdx Idealize.SL.Sem

/-- A host product of two square matrices at `(p, q)`: the sum over the shared axis. -/
theorem dot_apply (A B : FVec Ideal S1024x1024 .f32) (p q : Fin 1024) :
    Host.dotGeneral dot_S1024x1024_S1024x1024_S1024x1024_1_0_0_1_n_n none A B (ix2 p q) = ∑ k : Fin 1024, A (ix2 p k) * B (ix2 k q) := by
  rw [show Host.dotGeneral dot_S1024x1024_S1024x1024_S1024x1024_1_0_0_1_n_n none A B = Read.val_main_v0 (F := Ideal) B A from rfl, Read.val_main_v0_apply]
  refine Finset.sum_congr rfl fun k _ => ?_
  have el : Read.lidx_main_v0 (ix2 p q) k = ix2 p k := funext fun a => by match a with | ⟨0, _⟩ => rfl | ⟨1, _⟩ => rfl
  have er : Read.ridx_main_v0 (ix2 p q) k = ix2 k q := funext fun a => by match a with | ⟨0, _⟩ => rfl | ⟨1, _⟩ => rfl
  rw [el, er]

/-- One linear map as the reference computes it: `(L · X) · R + b`. -/
def linH (L R b X : FVec Ideal S1024x1024 .f32) : FVec Ideal S1024x1024 .f32 :=
  addf (Host.dotGeneral dot_S1024x1024_S1024x1024_S1024x1024_1_0_0_1_n_n none (Host.dotGeneral dot_S1024x1024_S1024x1024_S1024x1024_1_0_0_1_n_n none L X) R) b

theorem linH_apply (L R b X : FVec Ideal S1024x1024 .f32) (p q : Fin 1024) :
    linH L R b X (ix2 p q) = lin L R b X p q := by
  unfold linH lin mm
  rw [addf_apply, dot_apply]
  exact congrArg (· + b (ix2 p q)) (Finset.sum_congr rfl fun k _ => by rw [dot_apply])

/-- The constant one, broadcast over the matrix, reads the float pattern of one everywhere. -/
theorem one_apply (i : S1024x1024.Idx) : (broadcastInDim S1024x1024 ![] bcast_S_S1024x1024 (constant (F := Ideal) S_ .f32 0x3F800000#32)) i = Ideal.ofBits .f32 0x3F800000#32 :=
  (Read.val_main_v9_apply (F := Ideal) i).trans (Read.val_main_cst_apply _)

/-- A logistic gate as the reference computes it: `1 / (1 + e^(-z))`, entrywise. -/
def sigH (z : FVec Ideal S1024x1024 .f32) : FVec Ideal S1024x1024 .f32 :=
  Host.divf (broadcastInDim S1024x1024 ![] bcast_S_S1024x1024 (constant (F := Ideal) S_ .f32 0x3F800000#32)) (addf (broadcastInDim S1024x1024 ![] bcast_S_S1024x1024 (constant (F := Ideal) S_ .f32 0x3F800000#32)) (Host.exp (Host.negf z)))

theorem sigH_apply (z : FVec Ideal S1024x1024 .f32) (i : S1024x1024.Idx) : sigH z i = Ideal.logistic (z i) := by
  show Ideal.div ((broadcastInDim S1024x1024 ![] bcast_S_S1024x1024 (constant (F := Ideal) S_ .f32 0x3F800000#32)) i) ((broadcastInDim S1024x1024 ![] bcast_S_S1024x1024 (constant (F := Ideal) S_ .f32 0x3F800000#32)) i + Ideal.exp (-(z i))) = _
  rw [one_apply, logistic_expanded]

/-- The reference's new cell state is the specification's, entry by entry. -/
theorem cell_eq (P : Args) :
    Read.val_main_v49 (F := Ideal) P.x P.h P.c P.Lxi P.Rxi P.bxi P.Lhi P.Rhi P.bhi P.Lxf P.Rxf P.bxf P.Lhf P.Rhf P.bhf P.Lxg P.Rxg P.bxg P.Lhg P.Rhg P.bhg
      = cNewArr P := by
  funext i
  obtain ⟨p, q, rfl⟩ : ∃ (p q : Fin 1024), i = ix2 p q := ⟨i 0, i 1, eq_ix2 i⟩
  show (addf (mulf (sigH (addf (linH P.Lxf P.Rxf P.bxf P.x) (linH P.Lhf P.Rhf P.bhf P.h))) P.c)
      (mulf (sigH (addf (linH P.Lxi P.Rxi P.bxi P.x) (linH P.Lhi P.Rhi P.bhi P.h)))
        (Host.tanh (addf (linH P.Lxg P.Rxg P.bxg P.x) (linH P.Lhg P.Rhg P.bhg P.h))))) (ix2 p q) = cNew P p q
  rw [addf_apply, mulf_apply, mulf_apply, sigH_apply, sigH_apply]
  show Ideal.logistic (addf (F := Ideal) _ _ (ix2 p q)) * _ + Ideal.logistic (addf (F := Ideal) _ _ (ix2 p q)) * Ideal.tanh (addf (F := Ideal) _ _ (ix2 p q)) = _
  rw [addf_apply, addf_apply, addf_apply]
  simp only [linH_apply]
  rfl

/-- The reference's new hidden state is the specification's, entry by entry. -/
theorem hidden_eq (P : Args) :
    Read.val_main_v51 (F := Ideal) P.x P.h P.c P.Lxi P.Rxi P.bxi P.Lhi P.Rhi P.bhi P.Lxf P.Rxf P.bxf P.Lhf P.Rhf P.bhf P.Lxg P.Rxg P.bxg P.Lhg P.Rhg P.bhg
        P.Lxo P.Rxo P.bxo P.Lho P.Rho P.bho
      = hNewArr P := by
  funext i
  obtain ⟨p, q, rfl⟩ : ∃ (p q : Fin 1024), i = ix2 p q := ⟨i 0, i 1, eq_ix2 i⟩
  show (mulf (sigH (addf (linH P.Lxo P.Rxo P.bxo P.x) (linH P.Lho P.Rho P.bho P.h)))
      (Host.tanh (Read.val_main_v49 (F := Ideal) P.x P.h P.c P.Lxi P.Rxi P.bxi P.Lhi P.Rhi P.bhi P.Lxf P.Rxf P.bxf P.Lhf P.Rhf P.bhf P.Lxg P.Rxg P.bxg P.Lhg P.Rhg P.bhg))) (ix2 p q)
    = hNew P p q
  rw [cell_eq, mulf_apply, sigH_apply, addf_apply]
  simp only [linH_apply]
  rfl

/-- The 27 argument arrays as the reference is launched with them on core `c`. -/
def args (m : (ℓ : Loc nD τ sig) → Buf (Elt Ideal) ℓ) (c : Dev nD) : Args where
  x := m ((c.tc : Thread nD τ).loc main_arg0)
  h := m ((c.tc : Thread nD τ).loc main_arg1)
  c := m ((c.tc : Thread nD τ).loc main_arg2)
  Lxi := m ((c.tc : Thread nD τ).loc main_arg3)
  Rxi := m ((c.tc : Thread nD τ).loc main_arg4)
  bxi := m ((c.tc : Thread nD τ).loc main_arg5)
  Lhi := m ((c.tc : Thread nD τ).loc main_arg6)
  Rhi := m ((c.tc : Thread nD τ).loc main_arg7)
  bhi := m ((c.tc : Thread nD τ).loc main_arg8)
  Lxf := m ((c.tc : Thread nD τ).loc main_arg9)
  Rxf := m ((c.tc : Thread nD τ).loc main_arg10)
  bxf := m ((c.tc : Thread nD τ).loc main_arg11)
  Lhf := m ((c.tc : Thread nD τ).loc main_arg12)
  Rhf := m ((c.tc : Thread nD τ).loc main_arg13)
  bhf := m ((c.tc : Thread nD τ).loc main_arg14)
  Lxg := m ((c.tc : Thread nD τ).loc main_arg15)
  Rxg := m ((c.tc : Thread nD τ).loc main_arg16)
  bxg := m ((c.tc : Thread nD τ).loc main_arg17)
  Lhg := m ((c.tc : Thread nD τ).loc main_arg18)
  Rhg := m ((c.tc : Thread nD τ).loc main_arg19)
  bhg := m ((c.tc : Thread nD τ).loc main_arg20)
  Lxo := m ((c.tc : Thread nD τ).loc main_arg21)
  Rxo := m ((c.tc : Thread nD τ).loc main_arg22)
  bxo := m ((c.tc : Thread nD τ).loc main_arg23)
  Lho := m ((c.tc : Thread nD τ).loc main_arg24)
  Rho := m ((c.tc : Thread nD τ).loc main_arg25)
  bho := m ((c.tc : Thread nD τ).loc main_arg26)

end Cert.ReferenceIdeal.RefValue

end
-- ==== Proof.lean ====
/-
  The certificate of an LSTM cell whose eight linear maps are two-sided matrix products,
  `lin L R b X = (L · X) · R + b` on 1024 × 1024 matrices: with σ the logistic function,
      i = σ (lin x + lin h),  f = σ (lin x + lin h),  g = tanh (lin x + lin h),  o = σ (lin x + lin h),
      c' = f ∘ c + i ∘ g,  h' = o ∘ tanh c'.
  The kernel runs over 16 row tiles of 64 rows. At a tile it stacks the four `x`-path left-factor tiles into one
  256-row block, multiplies the block by `x` once and cuts the product back into four slices (and likewise for `h`), then
  multiplies each slice by its gate's right factor, adds the bias tile and applies the gates. The reference forms every
  `(L · X) · R + b` on the whole matrices and writes each logistic gate out as `1 / (1 + e^(-z))`.

  On the extended reals the two agree term by term, with no algebraic law between them: a row of a product depends only
  on the same row of the left factor, so slice `s` of the stacked product is tile `s` times `x` (Block.lean); a product into
  a zero accumulator and a host product are the same sum over the shared axis (Dots.lean, RefValue.lean); a change of
  float format is the identity; and `1 / (1 + e^(-z))` is the logistic function by definition (Spec.lean). The
  sixteen blocks cover the rows of both result arrays (Whole.lean). So neither side's value needs the inputs to be finite.
  The idealization changes no operation, so the fourth conjunct is `True`.
-/
import proofs.«429494_j66477503807912_3_alg».proof.Defs
import proofs.«429494_j66477503807912_3_alg».proof.Proof.Gen.Kernel
import proofs.«429494_j66477503807912_3_alg».proof.Proof.Gen.Kernel.Skeleton
import proofs.«429494_j66477503807912_3_alg».proof.Proof.Gen.Kernel.Launch
import proofs.«429494_j66477503807912_3_alg».proof.Proof.Gen.Kernel.Points
import proofs.«429494_j66477503807912_3_alg».proof.Proof.FrameKernel
import proofs.«429494_j66477503807912_3_alg».proof.Proof.Gen.KernelIdeal
import proofs.«429494_j66477503807912_3_alg».proof.Proof.Gen.KernelIdeal.Skeleton
import proofs.«429494_j66477503807912_3_alg».proof.Proof.Gen.KernelIdeal.Launch
import proofs.«429494_j66477503807912_3_alg».proof.Proof.Gen.KernelIdeal.Points
import proofs.«429494_j66477503807912_3_alg».proof.Proof.FrameKernelIdeal
import proofs.«429494_j66477503807912_3_alg».proof.Proof.ValueKernelIdeal
import proofs.«429494_j66477503807912_3_alg».proof.Proof.Gen.ReferenceIdeal
import proofs.«429494_j66477503807912_3_alg».proof.Proof.Gen.ReferenceIdeal.Run
import proofs.«429494_j66477503807912_3_alg».proof.Proof.Gen.ReferenceIdeal.Read
import proofs.«429494_j66477503807912_3_alg».proof.Proof.Gen.Pre_finite_inputs
import proofs.«429494_j66477503807912_3_alg».proof.Proof.Whole
import proofs.«429494_j66477503807912_3_alg».proof.Proof.RefValue
import Idealize.ShloMosaic.Adequacy
import Idealize.ShloMosaic.Init

noncomputable section

namespace Cert.Proof

open Idealize.ShloMosaic Idealize.ShloMosaic.TcCoe Idealize.SL.Sem Cert.KronLstm

/-- The word-level kernel terminates without a fault and leaves its arguments unchanged. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference is a straight line of host operations: its run, with the two results dropped. -/
theorem frame_r : Cert.frame_ReferenceIdeal := fun m ρ _ =>
  (θ_run Cert.ReferenceIdeal.defs _ _).mono (fun _ h c => (h c).2.2) (Cert.ReferenceIdeal.Value.run (F := Ideal) m ρ)

/-- Two lists of 27 matrices that agree entry by entry are the same list. -/
theorem args_congr {x' x h' h c' c Lxi' Lxi Rxi' Rxi bxi' bxi Lhi' Lhi Rhi' Rhi bhi' bhi Lxf' Lxf Rxf' Rxf bxf' bxf Lhf' Lhf Rhf' Rhf bhf' bhf Lxg' Lxg Rxg' Rxg bxg' bxg Lhg' Lhg Rhg' Rhg bhg' bhg Lxo' Lxo Rxo' Rxo bxo' bxo Lho' Lho Rho' Rho bho' bho : Mat}
    (e0 : x' = x) (e1 : h' = h) (e2 : c' = c) (e3 : Lxi' = Lxi) (e4 : Rxi' = Rxi) (e5 : bxi' = bxi) (e6 : Lhi' = Lhi) (e7 : Rhi' = Rhi) (e8 : bhi' = bhi) (e9 : Lxf' = Lxf) (e10 : Rxf' = Rxf) (e11 : bxf' = bxf) (e12 : Lhf' = Lhf) (e13 : Rhf' = Rhf) (e14 : bhf' = bhf) (e15 : Lxg' = Lxg) (e16 : Rxg' = Rxg) (e17 : bxg' = bxg) (e18 : Lhg' = Lhg) (e19 : Rhg' = Rhg) (e20 : bhg' = bhg) (e21 : Lxo' = Lxo) (e22 : Rxo' = Rxo) (e23 : bxo' = bxo) (e24 : Lho' = Lho) (e25 : Rho' = Rho) (e26 : bho' = bho) :
    Args.mk x' h' c' Lxi' Rxi' bxi' Lhi' Rhi' bhi' Lxf' Rxf' bxf' Lhf' Rhf' bhf' Lxg' Rxg' bxg' Lhg' Rhg' bhg' Lxo' Rxo' bxo' Lho' Rho' bho' = Args.mk x h c Lxi Rxi bxi Lhi Rhi bhi Lxf Rxf bxf Lhf Rhf bhf Lxg Rxg bxg Lhg Rhg bhg Lxo Rxo bxo Lho Rho bho := by
  subst e0 e1 e2 e3 e4 e5 e6 e7 e8 e9 e10 e11 e12 e13 e14 e15 e16 e17 e18 e19 e20 e21 e22 e23 e24 e25 e26
  rfl

/-- Both programs end with the specification's new hidden state and new cell state of the arguments. -/
theorem algebraic : Cert.algebraic_KernelIdeal_ReferenceIdeal := by
  intro m ρ m' ρ' _ hagree
  refine ⟨fun c => hNewArr (Cert.KernelIdeal.Whole.args m c), fun c => cNewArr (Cert.KernelIdeal.Whole.args m c), ?_, ?_⟩
  · exact (θ_run Cert.KernelIdeal.defs _ _).mono
      (fun r h c => ⟨(h c).1.trans (Cert.KernelIdeal.Whole.final27 m c), (h c).2.1.trans (Cert.KernelIdeal.Whole.final28 m c), (h c).2.2⟩)
      (Cert.KernelIdeal.ValueP.run_blocks (F := Ideal) m ρ)
  · have hargs : ∀ c, Cert.ReferenceIdeal.RefValue.args m' c = Cert.KernelIdeal.Whole.args m c := fun c => by
      obtain ⟨a0, a1, a2, a3, a4, a5, a6, a7, a8, a9, a10, a11, a12, a13, a14, a15, a16, a17, a18, a19, a20, a21, a22, a23, a24, a25, a26⟩ := hagree c
      exact args_congr a0 a1 a2 a3 a4 a5 a6 a7 a8 a9 a10 a11 a12 a13 a14 a15 a16 a17 a18 a19 a20 a21 a22 a23 a24 a25 a26
    refine (θ_run Cert.ReferenceIdeal.defs _ _).mono (fun r h c => ⟨(h c).1.trans ?_, (h c).2.1.trans ?_, (h c).2.2⟩)
      (Cert.ReferenceIdeal.Value.run (F := Ideal) m' ρ')
    · exact ((Cert.ReferenceIdeal.Read.val_main_v51_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26))).trans
        (Cert.ReferenceIdeal.RefValue.hidden_eq (Cert.ReferenceIdeal.RefValue.args m' c))).trans (congrArg hNewArr (hargs c))
    · exact ((Cert.ReferenceIdeal.Read.val_main_v49_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))).trans
        (Cert.ReferenceIdeal.RefValue.cell_eq (Cert.ReferenceIdeal.RefValue.args m' c))).trans (congrArg cNewArr (hargs c))

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
